-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S481x128 : Shape := ⟨2, ![481, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512 : Shape := ⟨1, ![512]⟩
abbrev S1000000x6 : Shape := ⟨2, ![1000000, 6]⟩
abbrev S1000000 : Shape := ⟨1, ![1000000]⟩
abbrev S100000 : Shape := ⟨1, ![100000]⟩
abbrev S_ : Shape := ⟨0, ![]⟩
abbrev S1000000x1 : Shape := ⟨2, ![1000000, 1]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S481x128 : S_.BroadcastsInDim S481x128 (![] : Fin 0 → Fin S481x128.rank)
  reducesTo_S481x128_S_d0_1 : S481x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S1000000x6_S1000000x1_0_1 : S1000000x6.Slices ![0, 1] S1000000x1
  shapeCasts_S1000000x1_S1000000 : S1000000x1.ShapeCasts S1000000
  bcast_S_S1000000 : S_.BroadcastsInDim S1000000 (![] : Fin 0 → Fin S1000000.rank)
  reducesTo_S1000000_S_d0 : S1000000.ReducesTo [0] S_
  slices_S1000000x6_S1000000x1_0_3 : S1000000x6.Slices ![0, 3] S1000000x1
  bcast_S_S512 : S_.BroadcastsInDim S512 (![] : Fin 0 → Fin S512.rank)
  reducesTo_S512_S_d0 : S512.ReducesTo [0] S_
  slices_S1000000x6_S1000000x1_0_0 : S1000000x6.Slices ![0, 0] S1000000x1

variable [Facts]

def fn_part4 {F : FTy → Type} [FloatOps F] (main_arg10 : IVec S1000000x6 32) (main_v65 : IVec S_ 1) (main_v67 : IVec S512 1) (main_v69 : IVec S512 1) : IVec S_ 1 :=
  let main_v70 : IVec S512 1 := andi main_v67 main_v69
  let main_c_24 : IVec S_ 1 := constantI S_ 1 1#1
  let main_v71 : IVec S_ 1 := (fun x v => Host.reduce IntOp.andi x v reducesTo_S512_S_d0 h_S_) main_v70 main_c_24
  let main_v72 : IVec S_ 1 := andi main_v65 main_v71
  let main_v73 : IVec S1000000x1 32 := (extractStridedSlice S1000000x1 ![0, 0] · slices_S1000000x6_S1000000x1_0_0) main_arg10
  let main_v74 : IVec S1000000 32 := shapeCast S1000000 main_v73 shapeCasts_S1000000x1_S1000000
  let main_c_25 : IVec S_ 32 := constantI S_ 32 4294966784#32
  let main_v75 : IVec S1000000 32 := broadcastInDim S1000000 ![] bcast_S_S1000000 main_c_25
  let main_v76 : IVec S1000000 1 := cmpi .sge main_v74 main_v75
  let main_v77 : IVec S1000000x1 32 := (extractStridedSlice S1000000x1 ![0, 0] · slices_S1000000x6_S1000000x1_0_0) main_arg10
  let main_v78 : IVec S1000000 32 := shapeCast S1000000 main_v77 shapeCasts_S1000000x1_S1000000
  let main_c_26 : IVec S_ 32 := constantI S_ 32 511#32
  let main_v79 : IVec S1000000 32 := broadcastInDim S1000000 ![] bcast_S_S1000000 main_c_26
  let main_v80 : IVec S1000000 1 := cmpi .sle main_v78 main_v79
  let main_v81 : IVec S1000000 1 := andi main_v76 main_v80
  let main_c_27 : IVec S_ 1 := constantI S_ 1 1#1
  let main_v82 : IVec S_ 1 := (fun x v => Host.reduce IntOp.andi x v reducesTo_S1000000_S_d0 h_S_) main_v81 main_c_27
  let main_v83 : IVec S_ 1 := andi main_v72 main_v82
  main_v83

def fn_part3 {F : FTy → Type} [FloatOps F] (main_arg9 : IVec S512 32) (main_arg10 : IVec S1000000x6 32) (main_v43 : IVec S_ 1) (main_v47 : IVec S1000000 1) (main_v51 : IVec S1000000 1) : IVec S_ 1 :=
  let main_v52 : IVec S1000000 1 := andi main_v47 main_v51
  let main_c_18 : IVec S_ 1 := constantI S_ 1 1#1
  let main_v53 : IVec S_ 1 := (fun x v => Host.reduce IntOp.andi x v reducesTo_S1000000_S_d0 h_S_) main_v52 main_c_18
  let main_v54 : IVec S_ 1 := andi main_v43 main_v53
  let main_v55 : IVec S1000000x1 32 := (extractStridedSlice S1000000x1 ![0, 3] · slices_S1000000x6_S1000000x1_0_3) main_arg10
  let main_v56 : IVec S1000000 32 := shapeCast S1000000 main_v55 shapeCasts_S1000000x1_S1000000
  let main_c_19 : IVec S_ 32 := constantI S_ 32 4294966814#32
  let main_v57 : IVec S1000000 32 := broadcastInDim S1000000 ![] bcast_S_S1000000 main_c_19
  let main_v58 : IVec S1000000 1 := cmpi .sge main_v56 main_v57
  let main_v59 : IVec S1000000x1 32 := (extractStridedSlice S1000000x1 ![0, 3] · slices_S1000000x6_S1000000x1_0_3) main_arg10
  let main_v60 : IVec S1000000 32 := shapeCast S1000000 main_v59 shapeCasts_S1000000x1_S1000000
  let main_c_20 : IVec S_ 32 := constantI S_ 32 479#32
  let main_v61 : IVec S1000000 32 := broadcastInDim S1000000 ![] bcast_S_S1000000 main_c_20
  let main_v62 : IVec S1000000 1 := cmpi .sle main_v60 main_v61
  let main_v63 : IVec S1000000 1 := andi main_v58 main_v62
  let main_c_21 : IVec S_ 1 := constantI S_ 1 1#1
  let main_v64 : IVec S_ 1 := (fun x v => Host.reduce IntOp.andi x v reducesTo_S1000000_S_d0 h_S_) main_v63 main_c_21
  let main_v65 : IVec S_ 1 := andi main_v54 main_v64
  let main_c_22 : IVec S_ 32 := constantI S_ 32 4294966814#32
  let main_v66 : IVec S512 32 := broadcastInDim S512 ![] bcast_S_S512 main_c_22
  let main_v67 : IVec S512 1 := cmpi .sge main_arg9 main_v66
  let main_c_23 : IVec S_ 32 := constantI S_ 32 479#32
  let main_v68 : IVec S512 32 := broadcastInDim S512 ![] bcast_S_S512 main_c_23
  let main_v69 : IVec S512 1 := cmpi .sle main_arg9 main_v68
  fn_part4 (F := F) main_arg10 main_v65 main_v67 main_v69

def fn_part2 {F : FTy → Type} [FloatOps F] (main_arg7 : FVec F S1 .f32) (main_arg8 : FVec F S128x128 .f32) (main_arg9 : IVec S512 32) (main_arg10 : IVec S1000000x6 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : IVec S1000000x1 32 := (extractStridedSlice S1000000x1 ![0, 1] · slices_S1000000x6_S1000000x1_0_1) main_arg10
  let main_v45 : IVec S1000000 32 := shapeCast S1000000 main_v44 shapeCasts_S1000000x1_S1000000
  let main_c_16 : IVec S_ 32 := constantI S_ 32 4294767296#32
  let main_v46 : IVec S1000000 32 := broadcastInDim S1000000 ![] bcast_S_S1000000 main_c_16
  let main_v47 : IVec S1000000 1 := cmpi .sge main_v45 main_v46
  let main_v48 : IVec S1000000x1 32 := (extractStridedSlice S1000000x1 ![0, 1] · slices_S1000000x6_S1000000x1_0_1) main_arg10
  let main_v49 : IVec S1000000 32 := shapeCast S1000000 main_v48 shapeCasts_S1000000x1_S1000000
  let main_c_17 : IVec S_ 32 := constantI S_ 32 199999#32
  let main_v50 : IVec S1000000 32 := broadcastInDim S1000000 ![] bcast_S_S1000000 main_c_17
  let main_v51 : IVec S1000000 1 := cmpi .sle main_v49 main_v50
  fn_part3 (F := F) main_arg9 main_arg10 main_v43 main_v47 main_v51

def fn_part1 {F : FTy → Type} [FloatOps F] (main_arg4 : FVec F S128x128 .f32) (main_arg5 : FVec F S128 .f32) (main_arg6 : FVec F S128x1 .f32) (main_arg7 : FVec F S1 .f32) (main_arg8 : FVec F S128x128 .f32) (main_arg9 : IVec S512 32) (main_arg10 : IVec S1000000x6 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S200000x128 .f32) (main_arg1 : FVec F S481x128 .f32) (main_arg2 : FVec F S128x128 .f32) (main_arg3 : FVec F S128x128 .f32) (main_arg4 : FVec F S128x128 .f32) (main_arg5 : FVec F S128 .f32) (main_arg6 : FVec F S128x1 .f32) (main_arg7 : FVec F S1 .f32) (main_arg8 : FVec F S128x128 .f32) (main_arg9 : IVec S512 32) (main_arg10 : IVec S1000000x6 32) (main_arg11 : IVec S1000000 32) (main_arg12 : IVec S100000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S481x128 .f32 := Host.absf main_arg1
  let main_cst_0 : FVec F S_ .f32 := constant S_ .f32 0x7F800000#32
  let main_v5 : FVec F S481x128 .f32 := broadcastInDim S481x128 ![] bcast_S_S481x128 main_cst_0
  let main_v6 : IVec S481x128 1 := cmpf .olt main_v4 main_v5
  let main_c_1 : IVec S_ 1 := constantI S_ 1 1#1
  let main_v7 : IVec S_ 1 := (fun x v => Host.reduce IntOp.andi x v reducesTo_S481x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S200000x128 : Shape := ⟨2, ![200000, 128]⟩
abbrev S481x128 : Shape := ⟨2, ![481, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512 : Shape := ⟨1, ![512]⟩
abbrev S1000000x6 : Shape := ⟨2, ![1000000, 6]⟩
abbrev S1000000 : Shape := ⟨1, ![1000000]⟩
abbrev S100000 : Shape := ⟨1, ![100000]⟩
abbrev S1000000x1 : Shape := ⟨2, ![1000000, 1]⟩
abbrev S_ : Shape := ⟨0, ![]⟩
abbrev S1x1 : Shape := ⟨2, ![1, 1]⟩
abbrev S1000000x128 : Shape := ⟨2, ![1000000, 128]⟩
abbrev S512x1 : Shape := ⟨2, ![512, 1]⟩
abbrev S512x128 : Shape := ⟨2, ![512, 128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S100000x128 : Shape := ⟨2, ![100000, 128]⟩
abbrev S10000x128 : Shape := ⟨2, ![10000, 128]⟩

abbrev nBuf : Space → Nat
  | .hbm => 126
  | .vmem => 19
  | .smem => 0
  | _ => 0

abbrev bufTy : (tb : Table) → Fin (tcTables nBuf tb) → BufTy
  | .hbm, ⟨0, _⟩ => ⟨S200000x128, .f32⟩
  | .hbm, ⟨1, _⟩ => ⟨S481x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S512, .i32⟩
  | .hbm, ⟨10, _⟩ => ⟨S1000000x6, .i32⟩
  | .hbm, ⟨11, _⟩ => ⟨S1000000, .i32⟩
  | .hbm, ⟨12, _⟩ => ⟨S100000, .i32⟩
  | .hbm, ⟨13, _⟩ => ⟨S1000000x1, .i32⟩
  | .hbm, ⟨14, _⟩ => ⟨S1000000, .i32⟩
  | .hbm, ⟨15, _⟩ => ⟨S1000000x1, .i32⟩
  | .hbm, ⟨16, _⟩ => ⟨S1000000, .i32⟩
  | .hbm, ⟨17, _⟩ => ⟨S1000000x1, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1, .i32⟩
  | .hbm, ⟨28, _⟩ => ⟨S_, .i32⟩
  | .hbm, ⟨29, _⟩ => ⟨S1000000x1, .i32⟩
  | .hbm, ⟨30, _⟩ => ⟨S1000000x1, .i1⟩
  | .hbm, ⟨31, _⟩ => ⟨S1x1, .i32⟩
  | .hbm, ⟨32, _⟩ => ⟨S1000000x1, .i32⟩
  | .hbm, ⟨33, _⟩ => ⟨S1000000x1, .i1⟩
  | .hbm, ⟨34, _⟩ => ⟨S1000000x1, .i1⟩
  | .hbm, ⟨35, _⟩ => ⟨S_, .i1⟩
  | .hbm, ⟨36, _⟩ => ⟨S1000000, .i1⟩
  | .hbm, ⟨37, _⟩ => ⟨S1000000x128, .f32⟩
  | .hbm, ⟨38, _⟩ => ⟨S1000000x128, .i1⟩
  | .hbm, ⟨39, _⟩ => ⟨S_, .f32⟩
  | .hbm, ⟨40, _⟩ => ⟨S1000000x128, .f32⟩
  | .hbm, ⟨41, _⟩ => ⟨S1000000x128, .f32⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1, .i32⟩
  | .hbm, ⟨54, _⟩ => ⟨S_, .i32⟩
  | .hbm, ⟨55, _⟩ => ⟨S1000000x1, .i32⟩
  | .hbm, ⟨56, _⟩ => ⟨S1000000x1, .i1⟩
  | .hbm, ⟨57, _⟩ => ⟨S1x1, .i32⟩
  | .hbm, ⟨58, _⟩ => ⟨S1000000x1, .i32⟩
  | .hbm, ⟨59, _⟩ => ⟨S1000000x1, .i1⟩
  | .hbm, ⟨60, _⟩ => ⟨S1000000x1, .i1⟩
  | .hbm, ⟨61, _⟩ => ⟨S_, .i1⟩
  | .hbm, ⟨62, _⟩ => ⟨S1000000, .i1⟩
  | .hbm, ⟨63, _⟩ => ⟨S1000000x128, .f32⟩
  | .hbm, ⟨64, _⟩ => ⟨S1000000x128, .i1⟩
  | .hbm, ⟨65, _⟩ => ⟨S_, .f32⟩
  | .hbm, ⟨66, _⟩ => ⟨S1000000x128, .f32⟩
  | .hbm, ⟨67, _⟩ => ⟨S1000000x128, .f32⟩
  | .hbm, ⟨68, _⟩ => ⟨S_, .i32⟩
  | .hbm, ⟨69, _⟩ => ⟨S512, .i32⟩
  | .hbm, ⟨70, _⟩ => ⟨S512, .i32⟩
  | .hbm, ⟨71, _⟩ => ⟨S_, .i32⟩
  | .hbm, ⟨72, _⟩ => ⟨S512, .i32⟩
  | .hbm, ⟨73, _⟩ => ⟨S512, .i1⟩
  | .hbm, ⟨74, _⟩ => ⟨S_, .i32⟩
  | .hbm, ⟨75, _⟩ => ⟨S512, .i32⟩
  | .hbm, ⟨76, _⟩ => ⟨S512, .i32⟩
  | .hbm, ⟨77, _⟩ => ⟨S512, .i32⟩
  | .hbm, ⟨78, _⟩ => ⟨S512x1, .i32⟩
  | .hbm, ⟨79, _⟩ => ⟨S1, .i32⟩
  | .hbm, ⟨80, _⟩ => ⟨S_, .i32⟩
  | .hbm, ⟨81, _⟩ => ⟨S512x1, .i32⟩
  | .hbm, ⟨82, _⟩ => ⟨S512x1, .i1⟩
  | .hbm, ⟨83, _⟩ => ⟨S1x1, .i32⟩
  | .hbm, ⟨84, _⟩ => ⟨S512x1, .i32⟩
  | .hbm, ⟨85, _⟩ => ⟨S512x1, .i1⟩
  | .hbm, ⟨86, _⟩ => ⟨S512x1, .i1⟩
  | .hbm, ⟨87, _⟩ => ⟨S_, .i1⟩
  | .hbm, ⟨88, _⟩ => ⟨S512, .i1⟩
  | .hbm, ⟨89, _⟩ => ⟨S512x128, .f32⟩
  | .hbm, ⟨90, _⟩ => ⟨S512x128, .i1⟩
  | .hbm, ⟨91, _⟩ => ⟨S_, .f32⟩
  | .hbm, ⟨92, _⟩ => ⟨S512x128, .f32⟩
  | .hbm, ⟨93, _⟩ => ⟨S512x128, .f32⟩
  | .hbm, ⟨94, _⟩ => ⟨S_, .i32⟩
  | .hbm, ⟨95, _⟩ => ⟨S1000000, .i32⟩
  | .hbm, ⟨96, _⟩ => ⟨S1000000, .i1⟩
  | .hbm, ⟨97, _⟩ => ⟨S_, .i32⟩
  | .hbm, ⟨98, _⟩ => ⟨S1000000, .i32⟩
  | .hbm, ⟨99, _⟩ => ⟨S1000000, .i32⟩
  | .hbm, ⟨100, _⟩ => ⟨S1000000, .i32⟩
  | .hbm, ⟨101, _⟩ => ⟨S1000000x1, .i32⟩
  | .hbm, ⟨102, _⟩ => ⟨S1, .i32⟩
  | .hbm, ⟨103, _⟩ => ⟨S_, .i32⟩
  | .hbm, ⟨104, _⟩ => ⟨S1000000x1, .i32⟩
  | .hbm, ⟨105, _⟩ => ⟨S1000000x1, .i1⟩
  | .hbm, ⟨106, _⟩ => ⟨S1x1, .i32⟩
  | .hbm, ⟨107, _⟩ => ⟨S1000000x1, .i32⟩
  | .hbm, ⟨108, _⟩ => ⟨S1000000x1, .i1⟩
  | .hbm, ⟨109, _⟩ => ⟨S1000000x1, .i1⟩
  | .hbm, ⟨110, _⟩ => ⟨S_, .i1⟩
  | .hbm, ⟨111, _⟩ => ⟨S1000000, .i1⟩
  | .hbm, ⟨112, _⟩ => ⟨S1000000x128, .f32⟩
  | .hbm, ⟨113, _⟩ => ⟨S1000000x128, .i1⟩
  | .hbm, ⟨114, _⟩ => ⟨S_, .f32⟩
  | .hbm, ⟨115, _⟩ => ⟨S1000000x128, .f32⟩
  | .hbm, ⟨116, _⟩ => ⟨S1000000x128, .f32⟩
  | .hbm, ⟨117, _⟩ => ⟨S1x128, .f32⟩
  | .hbm, ⟨118, _⟩ => ⟨S1x128, .f32⟩
  | .hbm, ⟨119, _⟩ => ⟨S1x1, .f32⟩
  | .hbm, ⟨120, _⟩ => ⟨S1000000x128, .f32⟩
  | .hbm, ⟨121, _⟩ => ⟨S_, .f32⟩
  | .hbm, ⟨122, _⟩ => ⟨S100000x128, .f32⟩
  | .hbm, ⟨123, _⟩ => ⟨S1000000x1, .i32⟩
  | .hbm, ⟨124, _⟩ => ⟨S100000x128, .f32⟩
  | .hbm, ⟨125, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S5000x128, .f32⟩
  | .local _ .vmem, ⟨13, _⟩ => ⟨S5000x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v6 : Ref sig .tc := ⟨.hbm, 41, rfl⟩
abbrev main_c : Ref sig .tc := ⟨.hbm, 42, rfl⟩
abbrev main_v7 : Ref sig .tc := ⟨.hbm, 43, rfl⟩
abbrev main_v8 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v9 : Ref sig .tc := ⟨.hbm, 67, rfl⟩
abbrev main_c_0 : Ref sig .tc := ⟨.hbm, 68, rfl⟩
abbrev main_v10 : Ref sig .tc := ⟨.hbm, 69, rfl⟩
abbrev main_v11 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v12 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v13 : Ref sig .tc := ⟨.hbm, 116, rfl⟩
abbrev main_v14 : Ref sig .tc := ⟨.hbm, 117, rfl⟩
abbrev main_v15 : Ref sig .tc := ⟨.hbm, 118, rfl⟩
abbrev main_v16 : Ref sig .tc := ⟨.hbm, 119, rfl⟩
abbrev main_v17 : Ref sig .tc := ⟨.hbm, 120, rfl⟩
abbrev main_cst : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S1000000x6_S1000000x1_0_0 : S1000000x6.Slices ![0, 0] S1000000x1
  shapeCasts_S1000000x1_S1000000 : S1000000x1.ShapeCasts S1000000
  slices_S1000000x6_S1000000x1_0_1 : S1000000x6.Slices ![0, 1] S1000000x1
  slices_S1000000x6_S1000000x1_0_3 : S1000000x6.Slices ![0, 3] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x128_0 : S512.BroadcastsInDim S512x128 (![0] : Fin 1 → Fin S512x128.rank)
  bcast_S_S512x128 : S_.BroadcastsInDim S512x128 (![] : Fin 0 → Fin S512x128.rank)
  shapeCasts_S128_S1x128 : S128.ShapeCasts S1x128
  transposes_S128x1_S1x128_1_0 : S128x1.Transposes [1, 0] S1x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x128 : S5000x1.Broadcasts S5000x128
  bcast_S_S100000x128 : S_.BroadcastsInDim S100000x128 (![] : Fin 0 → Fin S100000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  gather_S200000x128_S1000000x1_S1000000x128_1_0_n_n_0_1_1128_wf : GatherDims.WF S200000x128 S1000000x1 S1000000x128 [1] [0] [] [0] [] 1 ![1, 128]
  gather_S481x128_S1000000x1_S1000000x128_1_0_n_n_0_1_1128_wf : GatherDims.WF S481x128 S1000000x1 S1000000x128 [1] [0] [] [0] [] 1 ![1, 128]
  gather_S481x128_S512x1_S512x128_1_0_n_n_0_1_1128_wf : GatherDims.WF S481x128 S512x1 S512x128 [1] [0] [] [0] [] 1 ![1, 128]
  gather_S512x128_S1000000x1_S1000000x128_1_0_n_n_0_1_1128_wf : GatherDims.WF S512x128 S1000000x1 S1000000x128 [1] [0] [] [0] [] 1 ![1, 128]
  dot_S5000x128_S128x128_S5000x128_1_0_0_1_n_n_wf : DotDims.WF S5000x128 S128x128 S5000x128 [1] [0] [0] [1] [] []
  scatter_S100000x128_S1000000x1_S1000000x128_1_0_0_1_wf : ScatterDims.WF S100000x128 S1000000x1 S1000000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .f32 = 32 ∨ (Rect.block (s := S1000000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S1000000x128.size a
  hwx0_2 : ∀ i : grid0.Coords, EltTy.bits .f32 = 32 ∨ (Rect.block (s := S1000000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S1000000x128.size a
  hwx0_9 : ∀ i : grid0.Coords, EltTy.bits .f32 = 32 ∨ (Rect.block (s := S1000000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S481x128_S1000000x1_S1000000x128_1_0_n_n_0_1_1128 : GatherDims S481x128 S1000000x1 S1000000x128 where
  offsetDims := [1]
  collapsedSliceDims := [0]
  operandBatchingDims := []
  startIndicesBatchingDims := []
  startIndexMap := [0]
  indexVectorDim := 1
  sliceSizes := ![1, 128]
  wf := gather_S481x128_S1000000x1_S1000000x128_1_0_n_n_0_1_1128_wf
def gather_S481x128_S512x1_S512x128_1_0_n_n_0_1_1128 : GatherDims S481x128 S512x1 S512x128 where
  offsetDims := [1]
  collapsedSliceDims := [0]
  operandBatchingDims := []
  startIndicesBatchingDims := []
  startIndexMap := [0]
  indexVectorDim := 1
  sliceSizes := ![1, 128]
  wf := gather_S481x128_S512x1_S512x128_1_0_n_n_0_1_1128_wf
def gather_S512x128_S1000000x1_S1000000x128_1_0_n_n_0_1_1128 : GatherDims S512x128 S1000000x1 S1000000x128 where
  offsetDims := [1]
  collapsedSliceDims := [0]
  operandBatchingDims := []
  startIndicesBatchingDims := []
  startIndexMap := [0]
  indexVectorDim := 1
  sliceSizes := ![1, 128]
  wf := gather_S512x128_S1000000x1_S1000000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v6) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v20) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S200000x128 : Shape := ⟨2, ![200000, 128]⟩
abbrev S481x128 : Shape := ⟨2, ![481, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S512 : Shape := ⟨1, ![512]⟩
abbrev S1000000x6 : Shape := ⟨2, ![1000000, 6]⟩
abbrev S1000000 : Shape := ⟨1, ![1000000]⟩
abbrev S100000 : Shape := ⟨1, ![100000]⟩
abbrev S1000000x1 : Shape := ⟨2, ![1000000, 1]⟩
abbrev S_ : Shape := ⟨0, ![]⟩
abbrev S1000000x128 : Shape := ⟨2, ![1000000, 128]⟩
abbrev S512x1 : Shape := ⟨2, ![512, 1]⟩
abbrev S512x128 : Shape := ⟨2, ![512, 128]⟩
abbrev S1x128 : Shape := ⟨2, ![1, 128]⟩
abbrev S1x1 : Shape := ⟨2, ![1, 1]⟩
abbrev S100000x128 : Shape := ⟨2, ![100000, 128]⟩

abbrev nBuf : Space → Nat
  | .hbm => 92
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S481x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S512, .i32⟩
  | .hbm, ⟨10, _⟩ => ⟨S1000000x6, .i32⟩
  | .hbm, ⟨11, _⟩ => ⟨S1000000, .i32⟩
  | .hbm, ⟨12, _⟩ => ⟨S100000, .i32⟩
  | .hbm, ⟨13, _⟩ => ⟨S1000000x1, .i32⟩
  | .hbm, ⟨14, _⟩ => ⟨S1000000, .i32⟩
  | .hbm, ⟨15, _⟩ => ⟨S1000000x1, .i32⟩
  | .hbm, ⟨16, _⟩ => ⟨S1000000, .i32⟩
  | .hbm, ⟨17, _⟩ => ⟨S1000000x1, .i32⟩
  | .hbm, ⟨18, _⟩ => ⟨S1000000, .i32⟩
  | .hbm, ⟨19, _⟩ => ⟨S_, .i32⟩
  | .hbm, ⟨20, _⟩ => ⟨S1000000, .i32⟩
  | .hbm, ⟨21, _⟩ => ⟨S1000000, .i1⟩
  | .hbm, ⟨22, _⟩ => ⟨S_, .i32⟩
  | .hbm, ⟨23, _⟩ => ⟨S1000000, .i32⟩
  | .hbm, ⟨24, _⟩ => ⟨S1000000, .i32⟩
  | .hbm, ⟨25, _⟩ => ⟨S1000000, .i32⟩
  | .hbm, ⟨26, _⟩ => ⟨S1000000x1, .i32⟩
  | .hbm, ⟨27, _⟩ => ⟨S1000000x128, .f32⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x128, .f32⟩
  | .hbm, ⟨40, _⟩ => ⟨S_, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S_, .i32⟩
  | .hbm, ⟨47, _⟩ => ⟨S512, .i32⟩
  | .hbm, ⟨48, _⟩ => ⟨S512, .i32⟩
  | .hbm, ⟨49, _⟩ => ⟨S512, .i32⟩
  | .hbm, ⟨50, _⟩ => ⟨S512x1, .i32⟩
  | .hbm, ⟨51, _⟩ => ⟨S512x128, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .f32⟩
  | .hbm, ⟨61, _⟩ => ⟨S1000000x128, .f32⟩
  | .hbm, ⟨62, _⟩ => ⟨S1000000x128, .f32⟩
  | .hbm, ⟨63, _⟩ => ⟨S1000000x128, .f32⟩
  | .hbm, ⟨64, _⟩ => ⟨S1000000x128, .f32⟩
  | .hbm, ⟨65, _⟩ => ⟨S1x128, .f32⟩
  | .hbm, ⟨66, _⟩ => ⟨S1000000x128, .f32⟩
  | .hbm, ⟨67, _⟩ => ⟨S1000000x128, .f32⟩
  | .hbm, ⟨68, _⟩ => ⟨S1000000x128, .f32⟩
  | .hbm, ⟨69, _⟩ => ⟨S_, .f32⟩
  | .hbm, ⟨70, _⟩ => ⟨S1000000x128, .f32⟩
  | .hbm, ⟨71, _⟩ => ⟨S1000000x128, .f32⟩
  | .hbm, ⟨72, _⟩ => ⟨S1000000x1, .f32⟩
  | .hbm, ⟨73, _⟩ => ⟨S1x1, .f32⟩
  | .hbm, ⟨74, _⟩ => ⟨S1000000x1, .f32⟩
  | .hbm, ⟨75, _⟩ => ⟨S1000000x1, .f32⟩
  | .hbm, ⟨76, _⟩ => ⟨S1000000x1, .f32⟩
  | .hbm, ⟨77, _⟩ => ⟨S1000000x1, .f32⟩
  | .hbm, ⟨78, _⟩ => ⟨S_, .f32⟩
  | .hbm, ⟨79, _⟩ => ⟨S1000000x1, .f32⟩
  | .hbm, ⟨80, _⟩ => ⟨S1000000x1, .f32⟩
  | .hbm, ⟨81, _⟩ => ⟨S_, .f32⟩
  | .hbm, ⟨82, _⟩ => ⟨S1000000x1, .f32⟩
  | .hbm, ⟨83, _⟩ => ⟨S1000000x1, .f32⟩
  | .hbm, ⟨84, _⟩ => ⟨S1000000x128, .f32⟩
  | .hbm, ⟨85, _⟩ => ⟨S1000000x128, .f32⟩
  | .hbm, ⟨86, _⟩ => ⟨S1000000x128, .f32⟩
  | .hbm, ⟨87, _⟩ => ⟨S_, .f32⟩
  | .hbm, ⟨88, _⟩ => ⟨S100000x128, .f32⟩
  | .hbm, ⟨89, _⟩ => ⟨S1000000x1, .i32⟩
  | .hbm, ⟨90, _⟩ => ⟨S100000x128, .f32⟩
  | .hbm, ⟨91, _⟩ => ⟨S100000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩

abbrev nD : Nat := 1
abbrev τ : Topo := Topo.v7x

variable {F : FTy → Type} [FloatOps F]

class Facts₀ : Prop where
  slices_S1000000x6_S1000000x1_0_0 : S1000000x6.Slices ![0, 0] S1000000x1
  shapeCasts_S1000000x1_S1000000 : S1000000x1.ShapeCasts S1000000
  slices_S1000000x6_S1000000x1_0_1 : S1000000x6.Slices ![0, 1] S1000000x1
  slices_S1000000x6_S1000000x1_0_3 : S1000000x6.Slices ![0, 3] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S512 : S_.BroadcastsInDim S512 (![] : Fin 0 → Fin S512.rank)
  bcast_S512_S512x1_0 : S512.BroadcastsInDim S512x1 (![0] : Fin 1 → Fin S512x1.rank)
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  bcast_S_S1000000x128 : S_.BroadcastsInDim S1000000x128 (![] : Fin 0 → Fin S1000000x128.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S100000x128 : S_.BroadcastsInDim S100000x128 (![] : Fin 0 → Fin S100000x128.rank)
  gather_S200000x128_S1000000x1_S1000000x128_1_0_n_n_0_1_1128_wf : GatherDims.WF S200000x128 S1000000x1 S1000000x128 [1] [0] [] [0] [] 1 ![1, 128]
  gather_S481x128_S1000000x1_S1000000x128_1_0_n_n_0_1_1128_wf : GatherDims.WF S481x128 S1000000x1 S1000000x128 [1] [0] [] [0] [] 1 ![1, 128]
  gather_S481x128_S512x1_S512x128_1_0_n_n_0_1_1128_wf : GatherDims.WF S481x128 S512x1 S512x128 [1] [0] [] [0] [] 1 ![1, 128]
  gather_S512x128_S1000000x1_S1000000x128_1_0_n_n_0_1_1128_wf : GatherDims.WF S512x128 S1000000x1 S1000000x128 [1] [0] [] [0] [] 1 ![1, 128]
  dot_S1000000x128_S128x128_S1000000x128_1_0_0_1_n_n_wf : DotDims.WF S1000000x128 S128x128 S1000000x128 [1] [0] [0] [1] [] []
  dot_S1000000x128_S128x1_S1000000x1_1_0_0_1_n_n_wf : DotDims.WF S1000000x128 S128x1 S1000000x1 [1] [0] [0] [1] [] []
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []

variable [Facts₀]

def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def gather_S481x128_S1000000x1_S1000000x128_1_0_n_n_0_1_1128 : GatherDims S481x128 S1000000x1 S1000000x128 where
  offsetDims := [1]
  collapsedSliceDims := [0]
  operandBatchingDims := []
  startIndicesBatchingDims := []
  startIndexMap := [0]
  indexVectorDim := 1
  sliceSizes := ![1, 128]
  wf := gather_S481x128_S1000000x1_S1000000x128_1_0_n_n_0_1_1128_wf
def gather_S481x128_S512x1_S512x128_1_0_n_n_0_1_1128 : GatherDims S481x128 S512x1 S512x128 where
  offsetDims := [1]
  collapsedSliceDims := [0]
  operandBatchingDims := []
  startIndicesBatchingDims := []
  startIndexMap := [0]
  indexVectorDim := 1
  sliceSizes := ![1, 128]
  wf := gather_S481x128_S512x1_S512x128_1_0_n_n_0_1_1128_wf
def gather_S512x128_S1000000x1_S1000000x128_1_0_n_n_0_1_1128 : GatherDims S512x128 S1000000x1 S1000000x128 where
  offsetDims := [1]
  collapsedSliceDims := [0]
  operandBatchingDims := []
  startIndicesBatchingDims := []
  startIndexMap := [0]
  indexVectorDim := 1
  sliceSizes := ![1, 128]
  wf := gather_S512x128_S1000000x1_S1000000x128_1_0_n_n_0_1_1128_wf
def dot_S1000000x128_S128x128_S1000000x128_1_0_0_1_n_n : DotDims S1000000x128 S128x128 S1000000x128 where
  lhsContracting := [1]
  rhsContracting := [0]
  lhsNonContracting := [0]
  rhsNonContracting := [1]
  lhsBatch := []
  rhsBatch := []
  wf := dot_S1000000x128_S128x128_S1000000x128_1_0_0_1_n_n_wf
def dot_S1000000x128_S128x1_S1000000x1_1_0_0_1_n_n : DotDims S1000000x128 S128x1 S1000000x1 where
  lhsContracting := [1]
  rhsContracting := [0]
  lhsNonContracting := [0]
  rhsNonContracting := [1]
  lhsBatch := []
  rhsBatch := []
  wf := dot_S1000000x128_S128x1_S1000000x1_1_0_0_1_n_n_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.EdgeSpec.lean ====
/-
  The two whole-array functions that both programs compute, index by index, on the extended reals.

  Per edge `e` (a row of the three gathered arrays `he`, `hr`, `qr`) and column `k`:
    pre  e k = ((Σ_j he[e,j]·Ws[j,k] + Σ_j hr[e,j]·Wr[j,k]) + Σ_j qr[e,j]·Wq[j,k]) + bq[0,k]
    gate e   = logistic ((Σ_k max (pre e k) 0 · wa[0,k]) + ba[0,0])
    msg  e k = gate e · (he[e,k] + hr[e,k])
  and, for the aggregated rows, the projection out[t,k] = Σ_j agg[t,j]·Wh[j,k].
  The bias row, the attention row and the attention offset are taken in the rank-2 forms [1,128], [1,128], [1,1].
-/
import Idealize.ShloMosaic.PureOps.Ideal
import Idealize.ShloMosaic.Lib.ValueIdx

noncomputable section

open scoped BigOperators
open Idealize.ShloMosaic Idealize.ShloMosaic.ValueIdx

namespace Cert.EdgeSpec

/-- Entry (r, k) of a row block times a 128 × 128 matrix: Σ_j x[r,j]·W[j,k]. -/
def rowDot {n : Nat} (x : FVec Ideal ⟨2, ![n, 128]⟩ .f32) (W : FVec Ideal ⟨2, ![128, 128]⟩ .f32) (r : Fin n) (k : Fin 128) : EReal :=
  ∑ j : Fin 128, x (ix2 r j) * W (ix2 j k)

/-- The pre-activation of row `r`, column `k`: the three products summed left to right, then the bias. -/
def preAct {n : Nat} (he hr qr : FVec Ideal ⟨2, ![n, 128]⟩ .f32) (Ws Wr Wq : FVec Ideal ⟨2, ![128, 128]⟩ .f32)
    (bq : FVec Ideal ⟨2, ![1, 128]⟩ .f32) (r : Fin n) (k : Fin 128) : EReal :=
  ((rowDot he Ws r k + rowDot hr Wr r k) + rowDot qr Wq r k) + bq (ix2 0 k)

/-- The attention logit of row `r`: the rectified pre-activation against the attention row, plus the offset. -/
def gateLogit {n : Nat} (he hr qr : FVec Ideal ⟨2, ![n, 128]⟩ .f32) (Ws Wr Wq : FVec Ideal ⟨2, ![128, 128]⟩ .f32)
    (bq wa : FVec Ideal ⟨2, ![1, 128]⟩ .f32) (ba : FVec Ideal ⟨2, ![1, 1]⟩ .f32) (r : Fin n) : EReal :=
  (∑ k : Fin 128, max (preAct he hr qr Ws Wr Wq bq r k) 0 * wa (ix2 0 k)) + ba (ix2 0 0)

/-- The message of a block of `n` rows: the logistic gate of each row times the sum of its two embeddings. -/
def rowMsg {n : Nat} (he hr qr : FVec Ideal ⟨2, ![n, 128]⟩ .f32) (Ws Wr Wq : FVec Ideal ⟨2, ![128, 128]⟩ .f32)
    (bq wa : FVec Ideal ⟨2, ![1, 128]⟩ .f32) (ba : FVec Ideal ⟨2, ![1, 1]⟩ .f32) : FVec Ideal ⟨2, ![n, 128]⟩ .f32 :=
  fun i => Ideal.logistic (gateLogit he hr qr Ws Wr Wq bq wa ba (i 0)) * (he (ix2 (i 0) (i 1)) + hr (ix2 (i 0) (i 1)))

/-- The bias vector as the one-row array [1,128] the message reads: row 0 holds it. -/
def biasRow (b : FVec Ideal ⟨1, ![128]⟩ .f32) : FVec Ideal ⟨2, ![1, 128]⟩ .f32 := fun i => b (ix1 (i 1))

/-- The attention column [128,1] as the one-row array [1,128]: its transpose. -/
def attRow (w : FVec Ideal ⟨2, ![128, 1]⟩ .f32) : FVec Ideal ⟨2, ![1, 128]⟩ .f32 := fun i => w (ix2 (i 1) 0)

/-- The attention offset [1] as the one-cell array [1,1]. -/
def offCell (a : FVec Ideal ⟨1, ![1]⟩ .f32) : FVec Ideal ⟨2, ![1, 1]⟩ .f32 := fun _ => a (ix1 0)

/-- The projection of a block of `n` rows: out[r,k] = Σ_j a[r,j]·W[j,k]. -/
def rowProj {n : Nat} (a : FVec Ideal ⟨2, ![n, 128]⟩ .f32) (W : FVec Ideal ⟨2, ![128, 128]⟩ .f32) : FVec Ideal ⟨2, ![n, 128]⟩ .f32 :=
  fun i => rowDot a W (i 0) (i 1)

/-- A row's dot product sees only that row: if two blocks agree on row `r` ↔ `r'`, so do the products. -/
theorem rowDot_congr {n n' : Nat} (x : FVec Ideal ⟨2, ![n, 128]⟩ .f32) (x' : FVec Ideal ⟨2, ![n', 128]⟩ .f32)
    (W : FVec Ideal ⟨2, ![128, 128]⟩ .f32) (r : Fin n) (r' : Fin n') (h : ∀ j : Fin 128, x (ix2 r j) = x' (ix2 r' j)) (k : Fin 128) :
    rowDot x W r k = rowDot x' W r' k :=
  Finset.sum_congr rfl fun j _ => by rw [h j]

/-- The message is computed row by row: row `r` of a block that holds rows of a larger array is that array's message row. -/
theorem rowMsg_congr {n n' : Nat} (he hr qr : FVec Ideal ⟨2, ![n, 128]⟩ .f32) (he' hr' qr' : FVec Ideal ⟨2, ![n', 128]⟩ .f32)
    (Ws Wr Wq : FVec Ideal ⟨2, ![128, 128]⟩ .f32) (bq wa : FVec Ideal ⟨2, ![1, 128]⟩ .f32) (ba : FVec Ideal ⟨2, ![1, 1]⟩ .f32)
    (r : Fin n) (r' : Fin n') (h1 : ∀ j : Fin 128, he (ix2 r j) = he' (ix2 r' j)) (h2 : ∀ j : Fin 128, hr (ix2 r j) = hr' (ix2 r' j))
    (h3 : ∀ j : Fin 128, qr (ix2 r j) = qr' (ix2 r' j)) (k : Fin 128) :
    rowMsg he hr qr Ws Wr Wq bq wa ba (ix2 r k) = rowMsg he' hr' qr' Ws Wr Wq bq wa ba (ix2 r' k) := by
  have hp : ∀ k, preAct he hr qr Ws Wr Wq bq r k = preAct he' hr' qr' Ws Wr Wq bq r' k := fun k => by
    unfold preAct
    rw [rowDot_congr he he' Ws r r' h1, rowDot_congr hr hr' Wr r r' h2, rowDot_congr qr qr' Wq r r' h3]
  have hg : gateLogit he hr qr Ws Wr Wq bq wa ba r = gateLogit he' hr' qr' Ws Wr Wq bq wa ba r' := by
    unfold gateLogit
    exact congrArg (· + ba (ix2 0 0)) (Finset.sum_congr rfl fun k _ => by rw [hp k])
  show Ideal.logistic _ * (_ + _) = Ideal.logistic _ * (_ + _)
  rw [show gateLogit he hr qr Ws Wr Wq bq wa ba ((ix2 r k : (⟨2, ![n, 128]⟩ : Shape).Idx) 0) = gateLogit he hr qr Ws Wr Wq bq wa ba r from rfl,
    show gateLogit he' hr' qr' Ws Wr Wq bq wa ba ((ix2 r' k : (⟨2, ![n', 128]⟩ : Shape).Idx) 0) = gateLogit he' hr' qr' Ws Wr Wq bq wa ba r' from rfl, hg]
  exact congrArg₂ (fun a b => Ideal.logistic (gateLogit he' hr' qr' Ws Wr Wq bq wa ba r') * (a + b)) (h1 k) (h2 k)

/-- Likewise the projection. -/
theorem rowProj_congr {n n' : Nat} (a : FVec Ideal ⟨2, ![n, 128]⟩ .f32) (a' : FVec Ideal ⟨2, ![n', 128]⟩ .f32)
    (W : FVec Ideal ⟨2, ![128, 128]⟩ .f32) (r : Fin n) (r' : Fin n') (h : ∀ j : Fin 128, a (ix2 r j) = a' (ix2 r' j)) (k : Fin 128) :
    rowProj a W (ix2 r k) = rowProj a' W (ix2 r' k) :=
  rowDot_congr a a' W r r' h k

end Cert.EdgeSpec

end
-- ==== Proof.KTake.lean ====
/-
  The three gathered row arrays the edge kernel reads, and why the fill of `jnp.take` never fires on admitted inputs.

  `jnp.take(x, idx, axis=0)` is: wrap a negative index once (idx + N where idx < 0), gather the rows, and replace
  every row whose wrapped index lies outside [0, N−1] by the NaN pattern. Plain indexing `x[idx]` is the same wrap and
  the same gather, with no replacement. Where −N ≤ idx < N the wrapped index lies in [0, N−1], the range mask is all
  ones, and the two agree. The precondition puts each of the four index vectors in that range.
-/
import proofs.«419128_j63204738728140_1_alg».proof.Pre_finite_inputs
import proofs.«419128_j63204738728140_1_alg».proof.Proof.Gen.Pre_finite_inputs
import proofs.«419128_j63204738728140_1_alg».proof.Proof.Gen.KernelIdeal
import Idealize.ShloMosaic.Lib.ValueIdx
import Idealize.ShloMosaic.Lib.ReduceAll
import Idealize.ShloMosaic.Lib.StableHlo.Predicate
import Idealize.ShloMosaic.Lib.Pipeline.Value

noncomputable section

namespace Cert.KernelIdeal.Take

open Cert.KernelIdeal Cert.KernelIdeal.Gen Idealize.ShloMosaic Idealize.ShloMosaic.ValueIdx

/-! ## The index vectors -/

/-- Column 0 of the facts table (the query of each edge), flat. -/
def bIdx (x10 : IVec S1000000x6 32) : IVec S1000000 32 :=
  shapeCast S1000000 (extractStridedSlice S1000000x1 ![0, 0] x10 slices_S1000000x6_S1000000x1_0_0) shapeCasts_S1000000x1_S1000000
/-- Column 1 (the node of each edge), flat. -/
def nIdx (x10 : IVec S1000000x6 32) : IVec S1000000 32 :=
  shapeCast S1000000 (extractStridedSlice S1000000x1 ![0, 1] x10 slices_S1000000x6_S1000000x1_0_1) shapeCasts_S1000000x1_S1000000
/-- Column 3 (the relation of each edge) plus one, flat. -/
def rIdx1 (x10 : IVec S1000000x6 32) : IVec S1000000 32 :=
  addi (shapeCast S1000000 (extractStridedSlice S1000000x1 ![0, 3] x10 slices_S1000000x6_S1000000x1_0_3) shapeCasts_S1000000x1_S1000000)
    (broadcastInDim S1000000 ![] bcast_S_S1000000 (constantI S_ 32 1#32))
/-- The query relations plus one. -/
def qIdx1 (x9 : IVec S512 32) : IVec S512 32 :=
  addi x9 (broadcastInDim S512 ![] bcast_S_S512 (constantI S_ 32 1#32))

/-- NumPy's wrap of a negative index into an axis of size `N`, over the edges: idx + N where idx < 0. -/
def wrapE (N : BitVec 32) (x : IVec S1000000 32) : IVec S1000000 32 :=
  select (cmpi .slt x (broadcastInDim S1000000 ![] bcast_S_S1000000 (constantI S_ 32 0#32)))
    (addi x (broadcastInDim S1000000 ![] bcast_S_S1000000 (constantI S_ 32 N))) x
/-- The same over the queries. -/
def wrapQ (N : BitVec 32) (x : IVec S512 32) : IVec S512 32 :=
  select (cmpi .slt x (broadcastInDim S512 ![] bcast_S_S512 (constantI S_ 32 0#32)))
    (addi x (broadcastInDim S512 ![] bcast_S_S512 (constantI S_ 32 N))) x
/-- An edge index vector as the one-column start-index array a row gather takes. -/
def colE (x : IVec S1000000 32) : IVec S1000000x1 32 := broadcastInDim S1000000x1 ![0] bcast_S1000000_S1000000x1_0 x
/-- The same over the queries. -/
def colQ (x : IVec S512 32) : IVec S512x1 32 := broadcastInDim S512x1 ![0] bcast_S512_S512x1_0 x

/-! ## The gathered rows, without fill -/

/-- hidden[n]: the node row of each edge. -/
def heArr (x0 : FVec Ideal S200000x128 .f32) (x10 : IVec S1000000x6 32) : FVec Ideal S1000000x128 .f32 :=
  Host.gather gather_S200000x128_S1000000x1_S1000000x128_1_0_n_n_0_1_1128 x0 (colE (wrapE 200000#32 (nIdx x10)))
/-- rel_table[r + 1]: the relation row of each edge. -/
def hrArr (x1 : FVec Ideal S481x128 .f32) (x10 : IVec S1000000x6 32) : FVec Ideal S1000000x128 .f32 :=
  Host.gather gather_S481x128_S1000000x1_S1000000x128_1_0_n_n_0_1_1128 x1 (colE (wrapE 481#32 (rIdx1 x10)))
/-- rel_table[query_rel + 1]: the relation row of each query. -/
def qtArr (x1 : FVec Ideal S481x128 .f32) (x9 : IVec S512 32) : FVec Ideal S512x128 .f32 :=
  Host.gather gather_S481x128_S512x1_S512x128_1_0_n_n_0_1_1128 x1 (colQ (wrapQ 481#32 (qIdx1 x9)))
/-- rel_table[query_rel + 1][b]: the query-relation row of each edge. -/
def qrArr (x1 : FVec Ideal S481x128 .f32) (x9 : IVec S512 32) (x10 : IVec S1000000x6 32) : FVec Ideal S1000000x128 .f32 :=
  Host.gather gather_S512x128_S1000000x1_S1000000x128_1_0_n_n_0_1_1128 (qtArr x1 x9) (colE (wrapE 512#32 (bIdx x10)))

/-! ## The range mask and the fill of `jnp.take` -/

/-- The mask "0 ≤ start ≤ hi" of each edge's one start index, reduced over the index vector's one component. -/
def inbE (hi : BitVec 32) (w : IVec S1000000x1 32) : IVec S1000000 1 :=
  Host.reduce IntOp.andi
    (andi (cmpi .sge w (broadcastInDim S1000000x1 ![] bcast_S_S1000000x1 (constantI S_ 32 0#32)))
      (cmpi .sle w (broadcastInDim S1000000x1 ![0, 1] bcast_S1x1_S1000000x1_0_1 (broadcastInDim S1x1 ![1] bcast_S1_S1x1_1 (constantI S1 32 hi)))))
    (constantI S_ 1 1#1) reducesTo_S1000000x1_S1000000_d1 h_S_
/-- The same over the queries. -/
def inbQ (hi : BitVec 32) (w : IVec S512x1 32) : IVec S512 1 :=
  Host.reduce IntOp.andi
    (andi (cmpi .sge w (broadcastInDim S512x1 ![] bcast_S_S512x1 (constantI S_ 32 0#32)))
      (cmpi .sle w (broadcastInDim S512x1 ![0, 1] bcast_S1x1_S512x1_0_1 (broadcastInDim S1x1 ![1] bcast_S1_S1x1_1 (constantI S1 32 hi)))))
    (constantI S_ 1 1#1) reducesTo_S512x1_S512_d1 h_S_
/-- Rows whose mask bit is clear are replaced by the NaN pattern. -/
def fillE (mask : IVec S1000000 1) (g : FVec Ideal S1000000x128 .f32) : FVec Ideal S1000000x128 .f32 :=
  select (broadcastInDim S1000000x128 ![0] bcast_S1000000_S1000000x128_0 mask) g
    (broadcastInDim S1000000x128 ![] bcast_S_S1000000x128 (constant S_ .f32 0x7FC00000#32))
/-- The same over the queries. -/
def fillQ (mask : IVec S512 1) (g : FVec Ideal S512x128 .f32) : FVec Ideal S512x128 .f32 :=
  select (broadcastInDim S512x128 ![0] bcast_S512_S512x128_0 mask) g
    (broadcastInDim S512x128 ![] bcast_S_S512x128 (constant S_ .f32 0x7FC00000#32))

/-- `jnp.take(hidden, n)` as the kernel's program spells it. -/
def heTake (x0 : FVec Ideal S200000x128 .f32) (x10 : IVec S1000000x6 32) : FVec Ideal S1000000x128 .f32 :=
  fillE (inbE 199999#32 (colE (wrapE 200000#32 (nIdx x10)))) (heArr x0 x10)
/-- `jnp.take(rel_table, r + 1)`. -/
def hrTake (x1 : FVec Ideal S481x128 .f32) (x10 : IVec S1000000x6 32) : FVec Ideal S1000000x128 .f32 :=
  fillE (inbE 480#32 (colE (wrapE 481#32 (rIdx1 x10)))) (hrArr x1 x10)
/-- `jnp.take(rel_table, query_rel + 1)`. -/
def qtTake (x1 : FVec Ideal S481x128 .f32) (x9 : IVec S512 32) : FVec Ideal S512x128 .f32 :=
  fillQ (inbQ 480#32 (colQ (wrapQ 481#32 (qIdx1 x9)))) (qtArr x1 x9)
/-- `jnp.take(jnp.take(rel_table, query_rel + 1), b)`. -/
def qrTake (x1 : FVec Ideal S481x128 .f32) (x9 : IVec S512 32) (x10 : IVec S1000000x6 32) : FVec Ideal S1000000x128 .f32 :=
  fillE (inbE 511#32 (colE (wrapE 512#32 (bIdx x10))))
    (Host.gather gather_S512x128_S1000000x1_S1000000x128_1_0_n_n_0_1_1128 (qtTake x1 x9) (colE (wrapE 512#32 (bIdx x10))))

/-! ## What the precondition says of the four index vectors -/

/-- Every index lies in NumPy's valid range of the axis it indexes. -/
structure InRange (x9 : IVec S512 32) (x10 : IVec S1000000x6 32) : Prop where
  node : ∀ e : Fin 1000000, -200000 ≤ (x10 (ix2 e 1)).toInt ∧ (x10 (ix2 e 1)).toInt ≤ 199999
  rel : ∀ e : Fin 1000000, -482 ≤ (x10 (ix2 e 3)).toInt ∧ (x10 (ix2 e 3)).toInt ≤ 479
  qrel : ∀ q : Fin 512, -482 ≤ (x9 (ix1 q)).toInt ∧ (x9 (ix1 q)).toInt ≤ 479
  query : ∀ e : Fin 1000000, -512 ≤ (x10 (ix2 e 0)).toInt ∧ (x10 (ix2 e 0)).toInt ≤ 511

/-! ## Words -/

/-- A sum of two words whose signed sum fits in 32 bits reads as that sum. -/
private theorem toInt_addi (a b : BitVec 32) (h1 : -2 ^ 31 ≤ a.toInt + b.toInt) (h2 : a.toInt + b.toInt < 2 ^ 31) :
    (IntOp.addi a b).toInt = a.toInt + b.toInt := by
  rw [IntOp.addi, BitVec.toInt_add]
  exact Int.bmod_eq_of_le (by omega) (by omega)

/-- The wrapped index of an index in [−n, n−1] lies in [0, n−1]: both range tests pass. -/
private theorem wrap_bit (N hi x : BitVec 32) (n : Int) (hN : N.toInt = n) (hhi : hi.toInt = n - 1) (hn0 : 0 < n) (hn : n ≤ 2 ^ 30)
    (h1 : -n ≤ x.toInt) (h2 : x.toInt < n) :
    IntOp.andi (IntOp.cmpi .sge (Scalar.select (IntOp.cmpi .slt x 0#32) (IntOp.addi x N) x) 0#32)
      (IntOp.cmpi .sle (Scalar.select (IntOp.cmpi .slt x 0#32) (IntOp.addi x N) x) hi) = 1#1 := by
  rw [IntOp.andi_eq_one, IntOp.cmpi_sge, IntOp.cmpi_sle]
  have h0 : (0#32 : BitVec 32).toInt = 0 := by decide
  by_cases hx : x.toInt < 0
  · have hc : IntOp.cmpi .slt x 0#32 = 1#1 := IntOp.cmpi_slt.2 (by rw [h0]; exact hx)
    rw [hc, select_one, toInt_addi x N (by omega) (by omega), h0, hhi, hN]
    omega
  · have hc : IntOp.cmpi .slt x 0#32 = 0#1 :=
      eq_zero_of_ne_one (fun h => hx (by have := IntOp.cmpi_slt.1 h; rwa [h0] at this))
    rw [hc, select_zero, h0, hhi]
    omega

/-- One more than a word in [−482, 479] lies in [−481, 480], with no wrap-around. -/
private theorem succ_range (r : BitVec 32) (h : -482 ≤ r.toInt ∧ r.toInt ≤ 479) :
    -481 ≤ (IntOp.addi r 1#32).toInt ∧ (IntOp.addi r 1#32).toInt < 481 := by
  have h1 : (1#32 : BitVec 32).toInt = 1 := by decide
  rw [toInt_addi r 1#32 (by omega) (by omega), h1]
  omega

/-! ## An `and` of ones -/

/-- A left fold by `and` from 1 over bits that are all 1 is 1. -/
private theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from rfl]
    exact foldl_andi_one f hf l

/-- A reduce by `and` from the constant 1 of an array that is 1 everywhere is 1 everywhere. -/
private theorem reduce_andi_one {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl, hi]
  exact foldl_andi_one x hx _

/-! ## The range mask of an index vector in range is all ones -/

/-- Over the edges: every index in [−n, n−1] wraps into [0, n−1], so its mask bit is set. -/
private theorem inbE_one (N hi : BitVec 32) (n : Int) (hN : N.toInt = n) (hhi : hi.toInt = n - 1) (hn0 : 0 < n) (hn : n ≤ 2 ^ 30)
    (x : IVec S1000000 32) (hx : ∀ e : Fin 1000000, -n ≤ (x (ix1 e)).toInt ∧ (x (ix1 e)).toInt < n) :
    inbE hi (colE (wrapE N x)) = fun _ => 1#1 := by
  funext j
  unfold inbE
  refine reduce_andi_one _ _ _ _ (fun _ => rfl) (fun i => ?_) j
  have hcol : colE (wrapE N x) i = wrapE N x (ix1 (i 0)) := by
    unfold colE
    exact broadcastInDim_apply _ _ _ i (ix1 (i 0)) (fun a => match a with | ⟨0, _⟩ => rfl)
  show IntOp.andi (IntOp.cmpi .sge (colE (wrapE N x) i) 0#32) (IntOp.cmpi .sle (colE (wrapE N x) i) hi) = 1#1
  rw [hcol]
  exact wrap_bit N hi (x (ix1 (i 0))) n hN hhi hn0 hn (hx (i 0)).1 (hx (i 0)).2

/-- Over the queries. -/
private theorem inbQ_one (N hi : BitVec 32) (n : Int) (hN : N.toInt = n) (hhi : hi.toInt = n - 1) (hn0 : 0 < n) (hn : n ≤ 2 ^ 30)
    (x : IVec S512 32) (hx : ∀ q : Fin 512, -n ≤ (x (ix1 q)).toInt ∧ (x (ix1 q)).toInt < n) :
    inbQ hi (colQ (wrapQ N x)) = fun _ => 1#1 := by
  funext j
  unfold inbQ
  refine reduce_andi_one _ _ _ _ (fun _ => rfl) (fun i => ?_) j
  have hcol : colQ (wrapQ N x) i = wrapQ N x (ix1 (i 0)) := by
    unfold colQ
    exact broadcastInDim_apply _ _ _ i (ix1 (i 0)) (fun a => match a with | ⟨0, _⟩ => rfl)
  show IntOp.andi (IntOp.cmpi .sge (colQ (wrapQ N x) i) 0#32) (IntOp.cmpi .sle (colQ (wrapQ N x) i) hi) = 1#1
  rw [hcol]
  exact wrap_bit N hi (x (ix1 (i 0))) n hN hhi hn0 hn (hx (i 0)).1 (hx (i 0)).2

/-- A fill under a mask of ones replaces nothing. -/
private theorem fillE_one (g : FVec Ideal S1000000x128 .f32) : fillE (fun _ => 1#1) g = g := by
  funext i
  unfold fillE
  rw [select_apply]
  exact select_one _ _
private theorem fillQ_one (g : FVec Ideal S512x128 .f32) : fillQ (fun _ => 1#1) g = g := by
  funext i
  unfold fillQ
  rw [select_apply]
  exact select_one _ _

/-! ## The index vectors at an edge -/

/-- Column `c` of the facts table, sliced out and flattened, read at edge `e`. -/
private theorem col_read (x10 : IVec S1000000x6 32) (o : Nat) (c : Fin 6) (ho : c.val = o)
    (hs : S1000000x6.Slices ![0, o] S1000000x1) (hc : S1000000x1.ShapeCasts S1000000) (e : Fin 1000000) :
    shapeCast S1000000 (extractStridedSlice S1000000x1 ![0, o] x10 hs) hc (ix1 e) = x10 (ix2 e c) := by
  refine (shapeCast_apply _ hc (ix1 e) (ix2 e (0 : Fin 1)) ?_).trans ?_
  · rw [Shape.rowMajor_val_two, Shape.rowMajor_val_one]
    show e.val * 1 + 0 = e.val
    omega
  · exact extractStridedSlice_apply ![0, o] x10 hs (ix2 e (0 : Fin 1)) (ix2 e c) (fun a => match a with
      | ⟨0, _⟩ => by show e.val = 0 + e.val; omega
      | ⟨1, _⟩ => by show c.val = o + 0; omega)

private theorem nIdx_read (x10 : IVec S1000000x6 32) (e : Fin 1000000) : nIdx x10 (ix1 e) = x10 (ix2 e 1) :=
  col_read x10 1 1 rfl _ _ e
private theorem bIdx_read (x10 : IVec S1000000x6 32) (e : Fin 1000000) : bIdx x10 (ix1 e) = x10 (ix2 e 0) :=
  col_read x10 0 0 rfl _ _ e
private theorem rIdx1_read (x10 : IVec S1000000x6 32) (e : Fin 1000000) : rIdx1 x10 (ix1 e) = IntOp.addi (x10 (ix2 e 3)) 1#32 :=
  congrArg (IntOp.addi · 1#32) (col_read x10 3 3 rfl _ _ e)
private theorem qIdx1_read (x9 : IVec S512 32) (q : Fin 512) : qIdx1 x9 (ix1 q) = IntOp.addi (x9 (ix1 q)) 1#32 := rfl

/-- A printed range test `lo ≤ v ≤ hi` over a whole index vector, reduced by `and` to one bit that is 1, read back at one index. -/
private theorem range_of_all {s t u : Shape} {axes : List (Fin s.rank)} [Subsingleton t.Idx] (v lo hi : IVec s 32) (init : IVec u 1)
    (hr : s.ReducesTo axes t) (hu : 0 < u.numel) (j : t.Idx)
    (h : Host.reduce IntOp.andi (andi (cmpi .sge v lo) (cmpi .sle v hi)) init hr hu j = 1#1) (i : s.Idx) :
    (lo i).toInt ≤ (v i).toInt ∧ (v i).toInt ≤ (hi i).toInt := by
  have hb := Host.reduce_andi_all _ init hr hu j h i
  obtain ⟨h1, h2⟩ := IntOp.andi_eq_one.1 hb
  exact ⟨IntOp.cmpi_sge.1 h1, IntOp.cmpi_sle.1 h2⟩

/-- The printed precondition, all ones, puts the four index vectors in range. -/
theorem inRange_of_pre (x0 : FVec Ideal Cert.Pre_finite_inputs.S200000x128 .f32) (x1 : FVec Ideal Cert.Pre_finite_inputs.S481x128 .f32)
    (x2 x3 x4 : FVec Ideal Cert.Pre_finite_inputs.S128x128 .f32) (x5 : FVec Ideal Cert.Pre_finite_inputs.S128 .f32)
    (x6 : FVec Ideal Cert.Pre_finite_inputs.S128x1 .f32) (x7 : FVec Ideal Cert.Pre_finite_inputs.S1 .f32)
    (x8 : FVec Ideal Cert.Pre_finite_inputs.S128x128 .f32) (x9 : IVec Cert.Pre_finite_inputs.S512 32)
    (x10 : IVec Cert.Pre_finite_inputs.S1000000x6 32) (x11 : IVec Cert.Pre_finite_inputs.S1000000 32) (x12 : IVec Cert.Pre_finite_inputs.S100000 32)
    (h : Cert.Pre_finite_inputs.fn (F := Ideal) x0 x1 x2 x3 x4 x5 x6 x7 x8 x9 x10 x11 x12 = fun _ => 1#1) : InRange x9 x10 := by
  haveI : Subsingleton Cert.Pre_finite_inputs.S_.Idx := ⟨fun a b => funext fun d => d.elim0⟩
  have and0 : ∀ a b : IVec Cert.Pre_finite_inputs.S_ 1, andi a b ix0 = IntOp.andi (a ix0) (b ix0) := fun _ _ => rfl
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  simp only [and0, IntOp.andi_eq_one] at h0
  obtain ⟨⟨⟨⟨-, h53⟩, h64⟩, h71⟩, h82⟩ := h0
  have cN : (4294767296#32 : BitVec 32).toInt = -200000 := by decide
  have cR : (4294966814#32 : BitVec 32).toInt = -482 := by decide
  have cB : (4294966784#32 : BitVec 32).toInt = -512 := by decide
  have c1 : (199999#32 : BitVec 32).toInt = 199999 := by decide
  have c2 : (479#32 : BitVec 32).toInt = 479 := by decide
  have c3 : (511#32 : BitVec 32).toInt = 511 := by decide
  refine ⟨fun e => ?_, fun e => ?_, fun q => ?_, fun e => ?_⟩
  · have t := range_of_all _ _ _ _ _ _ _ h53 (ix1 e)
    rw [col_read x10 1 1 rfl] at t
    have t' : (4294767296#32 : BitVec 32).toInt ≤ (x10 (ix2 e 1)).toInt ∧ (x10 (ix2 e 1)).toInt ≤ (199999#32 : BitVec 32).toInt := t
    rwa [cN, c1] at t'
  · have t := range_of_all _ _ _ _ _ _ _ h64 (ix1 e)
    rw [col_read x10 3 3 rfl] at t
    have t' : (4294966814#32 : BitVec 32).toInt ≤ (x10 (ix2 e 3)).toInt ∧ (x10 (ix2 e 3)).toInt ≤ (479#32 : BitVec 32).toInt := t
    rwa [cR, c2] at t'
  · have t := range_of_all _ _ _ _ _ _ _ h71 (ix1 q)
    have t' : (4294966814#32 : BitVec 32).toInt ≤ (x9 (ix1 q)).toInt ∧ (x9 (ix1 q)).toInt ≤ (479#32 : BitVec 32).toInt := t
    rwa [cR, c2] at t'
  · have t := range_of_all _ _ _ _ _ _ _ h82 (ix1 e)
    rw [col_read x10 0 0 rfl] at t
    have t' : (4294966784#32 : BitVec 32).toInt ≤ (x10 (ix2 e 0)).toInt ∧ (x10 (ix2 e 0)).toInt ≤ (511#32 : BitVec 32).toInt := t
    rwa [cB, c3] at t'

/-! ## In range, `jnp.take` is plain indexing -/

theorem heTake_eq (x0 : FVec Ideal S200000x128 .f32) (x9 : IVec S512 32) (x10 : IVec S1000000x6 32) (h : InRange x9 x10) :
    heTake x0 x10 = heArr x0 x10 := by
  unfold heTake
  rw [inbE_one 200000#32 199999#32 200000 (by decide) (by decide) (by norm_num) (by norm_num) (nIdx x10)
    (fun e => by rw [nIdx_read]; have := h.node e; omega)]
  exact fillE_one _
theorem hrTake_eq (x1 : FVec Ideal S481x128 .f32) (x9 : IVec S512 32) (x10 : IVec S1000000x6 32) (h : InRange x9 x10) :
    hrTake x1 x10 = hrArr x1 x10 := by
  unfold hrTake
  rw [inbE_one 481#32 480#32 481 (by decide) (by decide) (by norm_num) (by norm_num) (rIdx1 x10)
    (fun e => by rw [rIdx1_read]; exact succ_range _ (h.rel e))]
  exact fillE_one _
theorem qrTake_eq (x1 : FVec Ideal S481x128 .f32) (x9 : IVec S512 32) (x10 : IVec S1000000x6 32) (h : InRange x9 x10) :
    qrTake x1 x9 x10 = qrArr x1 x9 x10 := by
  have hq : qtTake x1 x9 = qtArr x1 x9 := by
    unfold qtTake
    rw [inbQ_one 481#32 480#32 481 (by decide) (by decide) (by norm_num) (by norm_num) (qIdx1 x9)
      (fun q => by rw [qIdx1_read]; exact succ_range _ (h.qrel q))]
    exact fillQ_one _
  unfold qrTake
  rw [hq, inbE_one 512#32 511#32 512 (by decide) (by decide) (by norm_num) (by norm_num) (bIdx x10)
    (fun e => by rw [bIdx_read]; have := h.query e; omega)]
  exact fillE_one _

end Cert.KernelIdeal.Take

end
-- ==== Proof.KHost.lean ====
/-
  What the host operations of the kernel's program leave in the buffers the two kernels read.

  Before the edge kernel: the three `jnp.take`s (each a wrap, a gather and a fill under the range mask), the bias
  reshaped to one row, the attention column transposed to one row, the offset reshaped to one cell; the three weight
  matrices are arguments no operation writes. Between the kernels: the segment sum, a scatter-add of the message rows
  into a zero array at the tail indices; Wh is an argument no operation writes.
-/
import proofs.«419128_j63204738728140_1_alg».proof.Proof.Gen.KernelIdeal.Frame
import proofs.«419128_j63204738728140_1_alg».proof.Proof.EdgeSpec
import proofs.«419128_j63204738728140_1_alg».proof.Proof.KTake
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostVal

open Cert.KernelIdeal Cert.KernelIdeal.Gen Idealize.ShloMosaic Idealize.ShloMosaic.TcCoe Idealize.SL.Sem Idealize.ShloMosaic.ValueIdx
open Idealize.ShloMosaic.StableHlo

/-! ## The buffers each stretch of host operations writes

  A buffer outside a stretch's list is not written by it, so it holds after the stretch what it held before. -/

private abbrev L0 : List (Ref sig .tc) := [main_v0, main_v1, main_v2, main_v3, main_v4, main_v5]
private abbrev L1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
private abbrev L2 : List (Ref sig .tc) := [main_c, main_v7, main_v8]
private abbrev L3 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]
private abbrev L4 : List (Ref sig .tc) := [main_c_0, main_v10, main_v11]
private abbrev L5 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v12]
private abbrev L6 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v13]
private abbrev L7 : List (Ref sig .tc) := [main_v14, main_v15, main_v16]
private abbrev L8 : List (Ref sig .tc) := [main_cst, main_v18, main_v19, main_v20]

private theorem sub0 : (hostOps0 : List (HloOp τ sig (Elt Ideal))).Forall fun op => op.writes ⊆ (L0.map (Proc.devRef (τ := τ) .tc)).toFinset := by
  simp only [hostOps0, L0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub1 : (hostOps0_1 : List (HloOp τ sig (Elt Ideal))).Forall fun op => op.writes ⊆ (L1.map (Proc.devRef (τ := τ) .tc)).toFinset := by
  simp only [hostOps0_1, L1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub2 : (hostOps0_2 : List (HloOp τ sig (Elt Ideal))).Forall fun op => op.writes ⊆ (L2.map (Proc.devRef (τ := τ) .tc)).toFinset := by
  simp only [hostOps0_2, L2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub3 : (hostOps0_3 : List (HloOp τ sig (Elt Ideal))).Forall fun op => op.writes ⊆ (L3.map (Proc.devRef (τ := τ) .tc)).toFinset := by
  simp only [hostOps0_3, L3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub4 : (hostOps0_4 : List (HloOp τ sig (Elt Ideal))).Forall fun op => op.writes ⊆ (L4.map (Proc.devRef (τ := τ) .tc)).toFinset := by
  simp only [hostOps0_4, L4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub5 : (hostOps0_5 : List (HloOp τ sig (Elt Ideal))).Forall fun op => op.writes ⊆ (L5.map (Proc.devRef (τ := τ) .tc)).toFinset := by
  simp only [hostOps0_5, L5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub6 : (hostOps0_6 : List (HloOp τ sig (Elt Ideal))).Forall fun op => op.writes ⊆ (L6.map (Proc.devRef (τ := τ) .tc)).toFinset := by
  simp only [hostOps0_6, L6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub7 : (hostOps0_7 : List (HloOp τ sig (Elt Ideal))).Forall fun op => op.writes ⊆ (L7.map (Proc.devRef (τ := τ) .tc)).toFinset := by
  simp only [hostOps0_7, L7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

private theorem sub8 : (hostOps1 : List (HloOp τ sig (Elt Ideal))).Forall fun op => op.writes ⊆ (L8.map (Proc.devRef (τ := τ) .tc)).toFinset := by
  simp only [hostOps1, L8, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (m : (ℓ : Loc nD τ sig) → Buf (Elt Ideal) ℓ) (ρ : Dev nD → PrngReg)

/-! ## A buffer no stretch so far has written holds its launch contents -/

private theorem W1_arg (c : Dev nD) (r : Ref sig .tc) (h0 : r ∉ L0 := by decide) :
    W1 m ρ c (Proc.devRef .tc r) = m ((c : Thread nD τ).loc r) :=
  (StableHlo.after_of_writes_sub _ _ sub0 h0).trans rfl
private theorem W2_keep (c : Dev nD) (r : Ref sig .tc) (h : r ∉ L1 := by decide) :
    W2 m ρ c (Proc.devRef .tc r) = W1 m ρ c (Proc.devRef .tc r) := StableHlo.after_of_writes_sub _ _ sub1 h
private theorem W3_keep (c : Dev nD) (r : Ref sig .tc) (h : r ∉ L2 := by decide) :
    W3 m ρ c (Proc.devRef .tc r) = W2 m ρ c (Proc.devRef .tc r) := StableHlo.after_of_writes_sub _ _ sub2 h
private theorem W4_keep (c : Dev nD) (r : Ref sig .tc) (h : r ∉ L3 := by decide) :
    W4 m ρ c (Proc.devRef .tc r) = W3 m ρ c (Proc.devRef .tc r) := StableHlo.after_of_writes_sub _ _ sub3 h
private theorem W5_keep (c : Dev nD) (r : Ref sig .tc) (h : r ∉ L4 := by decide) :
    W5 m ρ c (Proc.devRef .tc r) = W4 m ρ c (Proc.devRef .tc r) := StableHlo.after_of_writes_sub _ _ sub4 h
private theorem W6_keep (c : Dev nD) (r : Ref sig .tc) (h : r ∉ L5 := by decide) :
    W6 m ρ c (Proc.devRef .tc r) = W5 m ρ c (Proc.devRef .tc r) := StableHlo.after_of_writes_sub _ _ sub5 h
private theorem W7_keep (c : Dev nD) (r : Ref sig .tc) (h : r ∉ L6 := by decide) :
    W7 m ρ c (Proc.devRef .tc r) = W6 m ρ c (Proc.devRef .tc r) := StableHlo.after_of_writes_sub _ _ sub6 h
private theorem W8_keep (c : Dev nD) (r : Ref sig .tc) (h : r ∉ L7 := by decide) :
    W8 m ρ c (Proc.devRef .tc r) = W7 m ρ c (Proc.devRef .tc r) := StableHlo.after_of_writes_sub _ _ sub7 h
private theorem W10_keep (c : Dev nD) (r : Ref sig .tc) (h : r ∉ L8 := by decide) :
    W10 m ρ c (Proc.devRef .tc r) = W9 m ρ c (Proc.devRef .tc r) := StableHlo.after_of_writes_sub _ _ sub8 h

private theorem W2_arg (c : Dev nD) (r : Ref sig .tc) (h0 : r ∉ L0 := by decide) (h1 : r ∉ L1 := by decide) :
    W2 m ρ c (Proc.devRef .tc r) = m ((c : Thread nD τ).loc r) :=
  (W2_keep m ρ c r h1).trans (W1_arg m ρ c r h0)
private theorem W3_arg (c : Dev nD) (r : Ref sig .tc) (h0 : r ∉ L0 := by decide) (h1 : r ∉ L1 := by decide) (h2 : r ∉ L2 := by decide) :
    W3 m ρ c (Proc.devRef .tc r) = m ((c : Thread nD τ).loc r) :=
  (W3_keep m ρ c r h2).trans (W2_arg m ρ c r h0 h1)
private theorem W4_arg (c : Dev nD) (r : Ref sig .tc) (h0 : r ∉ L0 := by decide) (h1 : r ∉ L1 := by decide) (h2 : r ∉ L2 := by decide)
    (h3 : r ∉ L3 := by decide) : W4 m ρ c (Proc.devRef .tc r) = m ((c : Thread nD τ).loc r) :=
  (W4_keep m ρ c r h3).trans (W3_arg m ρ c r h0 h1 h2)
private theorem W5_arg (c : Dev nD) (r : Ref sig .tc) (h0 : r ∉ L0 := by decide) (h1 : r ∉ L1 := by decide) (h2 : r ∉ L2 := by decide)
    (h3 : r ∉ L3 := by decide) (h4 : r ∉ L4 := by decide) : W5 m ρ c (Proc.devRef .tc r) = m ((c : Thread nD τ).loc r) :=
  (W5_keep m ρ c r h4).trans (W4_arg m ρ c r h0 h1 h2 h3)
private theorem W6_arg (c : Dev nD) (r : Ref sig .tc) (h0 : r ∉ L0 := by decide) (h1 : r ∉ L1 := by decide) (h2 : r ∉ L2 := by decide)
    (h3 : r ∉ L3 := by decide) (h4 : r ∉ L4 := by decide) (h5 : r ∉ L5 := by decide) :
    W6 m ρ c (Proc.devRef .tc r) = m ((c : Thread nD τ).loc r) :=
  (W6_keep m ρ c r h5).trans (W5_arg m ρ c r h0 h1 h2 h3 h4)
private theorem W7_arg (c : Dev nD) (r : Ref sig .tc) (h0 : r ∉ L0 := by decide) (h1 : r ∉ L1 := by decide) (h2 : r ∉ L2 := by decide)
    (h3 : r ∉ L3 := by decide) (h4 : r ∉ L4 := by decide) (h5 : r ∉ L5 := by decide) (h6 : r ∉ L6 := by decide) :
    W7 m ρ c (Proc.devRef .tc r) = m ((c : Thread nD τ).loc r) :=
  (W7_keep m ρ c r h6).trans (W6_arg m ρ c r h0 h1 h2 h3 h4 h5)
private theorem W8_arg (c : Dev nD) (r : Ref sig .tc) (h0 : r ∉ L0 := by decide) (h1 : r ∉ L1 := by decide) (h2 : r ∉ L2 := by decide)
    (h3 : r ∉ L3 := by decide) (h4 : r ∉ L4 := by decide) (h5 : r ∉ L5 := by decide) (h6 : r ∉ L6 := by decide) (h7 : r ∉ L7 := by decide) :
    W8 m ρ c (Proc.devRef .tc r) = m ((c : Thread nD τ).loc r) :=
  (W8_keep m ρ c r h7).trans (W7_arg m ρ c r h0 h1 h2 h3 h4 h5 h6)

/-! ## Reading a buffer at its value's type

  A host operation inside a called function reads its operands' buffers, and writes its result's, at the tensor type
  the function gives the value; for a buffer whose table type is that type both readings are the identity. -/

private theorem ofBuf_toBuf {T : BufTy} (r : Ref sig .tc) (h1 h1' : r.ty = T) (h2 h2' : r.space ≠ .host) (h3 h3' : r.isScoped = false)
    (v : T.Contents (Elt Ideal)) :
    (StableHlo.TRef.of r h1 h2 h3).ofBuf ((StableHlo.TRef.of r h1' h2' h3').toBuf v) = v := by
  subst h1
  rfl
private theorem leaf_v3 (h1 : (main_v3 : Ref sig .tc).ty = ⟨S1000000, .i32⟩) (h2 : (main_v3 : Ref sig .tc).space ≠ .host) (h3 : (main_v3 : Ref sig .tc).isScoped = false)
    (a : (main_v3 : Ref sig .tc).ty.Contents (Elt Ideal)) : (StableHlo.TRef.of main_v3 h1 h2 h3).ofBuf a = a := rfl
private theorem leaf_arg0 (h1 : (main_arg0 : Ref sig .tc).ty = ⟨S200000x128, .f32⟩) (h2 : (main_arg0 : Ref sig .tc).space ≠ .host) (h3 : (main_arg0 : Ref sig .tc).isScoped = false)
    (a : (main_arg0 : Ref sig .tc).ty.Contents (Elt Ideal)) : (StableHlo.TRef.of main_arg0 h1 h2 h3).ofBuf a = a := rfl
private theorem leaf_v8 (h1 : (main_v8 : Ref sig .tc).ty = ⟨S1000000, .i32⟩) (h2 : (main_v8 : Ref sig .tc).space ≠ .host) (h3 : (main_v8 : Ref sig .tc).isScoped = false)
    (a : (main_v8 : Ref sig .tc).ty.Contents (Elt Ideal)) : (StableHlo.TRef.of main_v8 h1 h2 h3).ofBuf a = a := rfl
private theorem leaf_arg1 (h1 : (main_arg1 : Ref sig .tc).ty = ⟨S481x128, .f32⟩) (h2 : (main_arg1 : Ref sig .tc).space ≠ .host) (h3 : (main_arg1 : Ref sig .tc).isScoped = false)
    (a : (main_arg1 : Ref sig .tc).ty.Contents (Elt Ideal)) : (StableHlo.TRef.of main_arg1 h1 h2 h3).ofBuf a = a := rfl
private theorem leaf_v11 (h1 : (main_v11 : Ref sig .tc).ty = ⟨S512, .i32⟩) (h2 : (main_v11 : Ref sig .tc).space ≠ .host) (h3 : (main_v11 : Ref sig .tc).isScoped = false)
    (a : (main_v11 : Ref sig .tc).ty.Contents (Elt Ideal)) : (StableHlo.TRef.of main_v11 h1 h2 h3).ofBuf a = a := rfl
private theorem leaf_v12 (h1 : (main_v12 : Ref sig .tc).ty = ⟨S512x128, .f32⟩) (h2 : (main_v12 : Ref sig .tc).space ≠ .host) (h3 : (main_v12 : Ref sig .tc).isScoped = false)
    (a : (main_v12 : Ref sig .tc).ty.Contents (Elt Ideal)) : (StableHlo.TRef.of main_v12 h1 h2 h3).ofBuf a = a := rfl
private theorem leaf_v1 (h1 : (main_v1 : Ref sig .tc).ty = ⟨S1000000, .i32⟩) (h2 : (main_v1 : Ref sig .tc).space ≠ .host) (h3 : (main_v1 : Ref sig .tc).isScoped = false)
    (a : (main_v1 : Ref sig .tc).ty.Contents (Elt Ideal)) : (StableHlo.TRef.of main_v1 h1 h2 h3).ofBuf a = a := rfl
private theorem root_v6 (h1 : (main_v6 : Ref sig .tc).ty = ⟨S1000000x128, .f32⟩) (h2 : (main_v6 : Ref sig .tc).space ≠ .host) (h3 : (main_v6 : Ref sig .tc).isScoped = false)
    (v : (⟨S1000000x128, .f32⟩ : BufTy).Contents (Elt Ideal)) : (StableHlo.TRef.of main_v6 h1 h2 h3).toBuf v = v := rfl
private theorem root_v9 (h1 : (main_v9 : Ref sig .tc).ty = ⟨S1000000x128, .f32⟩) (h2 : (main_v9 : Ref sig .tc).space ≠ .host) (h3 : (main_v9 : Ref sig .tc).isScoped = false)
    (v : (⟨S1000000x128, .f32⟩ : BufTy).Contents (Elt Ideal)) : (StableHlo.TRef.of main_v9 h1 h2 h3).toBuf v = v := rfl
private theorem root_v12 (h1 : (main_v12 : Ref sig .tc).ty = ⟨S512x128, .f32⟩) (h2 : (main_v12 : Ref sig .tc).space ≠ .host) (h3 : (main_v12 : Ref sig .tc).isScoped = false)
    (v : (⟨S512x128, .f32⟩ : BufTy).Contents (Elt Ideal)) : (StableHlo.TRef.of main_v12 h1 h2 h3).toBuf v = v := rfl
private theorem root_v13 (h1 : (main_v13 : Ref sig .tc).ty = ⟨S1000000x128, .f32⟩) (h2 : (main_v13 : Ref sig .tc).space ≠ .host) (h3 : (main_v13 : Ref sig .tc).isScoped = false)
    (v : (⟨S1000000x128, .f32⟩ : BufTy).Contents (Elt Ideal)) : (StableHlo.TRef.of main_v13 h1 h2 h3).toBuf v = v := rfl

/-! ## What each stretch leaves in the buffer it is read for, over any contents before it -/

private theorem s0_v1 (V : Valuation τ sig (Elt Ideal)) :
    StableHlo.after hostOps0 V (Proc.devRef .tc main_v1) = Take.bIdx (V (Proc.devRef .tc main_arg10)) := by
  after_results <;> rfl
private theorem s0_v3 (V : Valuation τ sig (Elt Ideal)) :
    StableHlo.after hostOps0 V (Proc.devRef .tc main_v3) = Take.nIdx (V (Proc.devRef .tc main_arg10)) := by
  after_results <;> rfl
private theorem s0_v5 (V : Valuation τ sig (Elt Ideal)) :
    StableHlo.after hostOps0 V (Proc.devRef .tc main_v5)
      = shapeCast S1000000 (extractStridedSlice S1000000x1 ![0, 3] (V (Proc.devRef .tc main_arg10)) slices_S1000000x6_S1000000x1_0_3)
          shapeCasts_S1000000x1_S1000000 := by
  after_results <;> rfl
private theorem s1_v6 (V : Valuation τ sig (Elt Ideal)) :
    StableHlo.after hostOps0_1 V (Proc.devRef .tc main_v6)
      = Take.fillE (Take.inbE 199999#32 (Take.colE (Take.wrapE 200000#32 (V (Proc.devRef .tc main_v3)))))
          (Host.gather gather_S200000x128_S1000000x1_S1000000x128_1_0_n_n_0_1_1128 (V (Proc.devRef .tc main_arg0))
            (Take.colE (Take.wrapE 200000#32 (V (Proc.devRef .tc main_v3))))) := by
  after_results_simp
  simp only [ofBuf_toBuf]
  rw [root_v6, leaf_v3, leaf_arg0]
  unfold Take.fillE Take.inbE Take.colE Take.wrapE
  rfl

private theorem s2_v8 (V : Valuation τ sig (Elt Ideal)) :
    StableHlo.after hostOps0_2 V (Proc.devRef .tc main_v8)
      = addi (V (Proc.devRef .tc main_v5)) (broadcastInDim S1000000 ![] bcast_S_S1000000 (constantI S_ 32 1#32)) := by
  after_results <;> rfl
private theorem s3_v9 (V : Valuation τ sig (Elt Ideal)) :
    StableHlo.after hostOps0_3 V (Proc.devRef .tc main_v9)
      = Take.fillE (Take.inbE 480#32 (Take.colE (Take.wrapE 481#32 (V (Proc.devRef .tc main_v8)))))
          (Host.gather gather_S481x128_S1000000x1_S1000000x128_1_0_n_n_0_1_1128 (V (Proc.devRef .tc main_arg1))
            (Take.colE (Take.wrapE 481#32 (V (Proc.devRef .tc main_v8))))) := by
  after_results_simp
  simp only [ofBuf_toBuf]
  rw [root_v9, leaf_v8, leaf_arg1]
  unfold Take.fillE Take.inbE Take.colE Take.wrapE
  rfl

private theorem s4_v11 (V : Valuation τ sig (Elt Ideal)) :
    StableHlo.after hostOps0_4 V (Proc.devRef .tc main_v11) = Take.qIdx1 (V (Proc.devRef .tc main_arg9)) := by
  after_results <;> rfl
private theorem s5_v12 (V : Valuation τ sig (Elt Ideal)) :
    StableHlo.after hostOps0_5 V (Proc.devRef .tc main_v12)
      = Take.fillQ (Take.inbQ 480#32 (Take.colQ (Take.wrapQ 481#32 (V (Proc.devRef .tc main_v11)))))
          (Host.gather gather_S481x128_S512x1_S512x128_1_0_n_n_0_1_1128 (V (Proc.devRef .tc main_arg1))
            (Take.colQ (Take.wrapQ 481#32 (V (Proc.devRef .tc main_v11))))) := by
  after_results_simp
  simp only [ofBuf_toBuf]
  rw [root_v12, leaf_v11, leaf_arg1]
  unfold Take.fillQ Take.inbQ Take.colQ Take.wrapQ
  rfl

private theorem s6_v13 (V : Valuation τ sig (Elt Ideal)) :
    StableHlo.after hostOps0_6 V (Proc.devRef .tc main_v13)
      = Take.fillE (Take.inbE 511#32 (Take.colE (Take.wrapE 512#32 (V (Proc.devRef .tc main_v1)))))
          (Host.gather gather_S512x128_S1000000x1_S1000000x128_1_0_n_n_0_1_1128 (V (Proc.devRef .tc main_v12))
            (Take.colE (Take.wrapE 512#32 (V (Proc.devRef .tc main_v1))))) := by
  after_results_simp
  simp only [ofBuf_toBuf]
  rw [root_v13, leaf_v1, leaf_v12]
  unfold Take.fillE Take.inbE Take.colE Take.wrapE
  rfl

private theorem s7_v14 (V : Valuation τ sig (Elt Ideal)) :
    StableHlo.after hostOps0_7 V (Proc.devRef .tc main_v14)
      = shapeCast S1x128 (V (Proc.devRef .tc main_arg5)) shapeCasts_S128_S1x128 := by
  after_results <;> rfl
private theorem s7_v15 (V : Valuation τ sig (Elt Ideal)) :
    StableHlo.after hostOps0_7 V (Proc.devRef .tc main_v15)
      = transpose S1x128 [1, 0] (V (Proc.devRef .tc main_arg6)) transposes_S128x1_S1x128_1_0 := by
  after_results <;> rfl
private theorem s7_v16 (V : Valuation τ sig (Elt Ideal)) :
    StableHlo.after hostOps0_7 V (Proc.devRef .tc main_v16)
      = shapeCast S1x1 (V (Proc.devRef .tc main_arg7)) shapeCasts_S1_S1x1 := by
  after_results <;> rfl

/-! ## At the edge kernel's entry -/

/-- The flat index columns of the facts table, as the first stretch leaves them. -/
private theorem W1_v1 (c : Dev nD) : W1 m ρ c (Proc.devRef .tc main_v1) = Take.bIdx (m ((c : Thread nD τ).loc main_arg10)) :=
  s0_v1 (W0 m ρ c)
private theorem W1_v3 (c : Dev nD) : W1 m ρ c (Proc.devRef .tc main_v3) = Take.nIdx (m ((c : Thread nD τ).loc main_arg10)) :=
  s0_v3 (W0 m ρ c)
private theorem W2_v5 (c : Dev nD) : W2 m ρ c (Proc.devRef .tc main_v5)
    = shapeCast S1000000 (extractStridedSlice S1000000x1 ![0, 3] (m ((c : Thread nD τ).loc main_arg10)) slices_S1000000x6_S1000000x1_0_3)
        shapeCasts_S1000000x1_S1000000 :=
  (W2_keep m ρ c main_v5).trans (s0_v5 (W0 m ρ c))

private theorem W2_v6 (c : Dev nD) : W2 m ρ c (Proc.devRef .tc main_v6)
    = Take.heTake (m ((c : Thread nD τ).loc main_arg0)) (m ((c : Thread nD τ).loc main_arg10)) := by
  refine (s1_v6 (W1 m ρ c)).trans ?_
  rw [W1_v3 m ρ c, W1_arg m ρ c main_arg0]
  rfl
theorem V8_v6 (c : Dev nD) : V8 m ρ c main_v6 = Take.heTake (m ((c : Thread nD τ).loc main_arg0)) (m ((c : Thread nD τ).loc main_arg10)) :=
  (W8_keep m ρ c main_v6).trans <| (W7_keep m ρ c main_v6).trans <| (W6_keep m ρ c main_v6).trans <| (W5_keep m ρ c main_v6).trans <|
    (W4_keep m ρ c main_v6).trans <| (W3_keep m ρ c main_v6).trans (W2_v6 m ρ c)

private theorem W3_v8 (c : Dev nD) : W3 m ρ c (Proc.devRef .tc main_v8) = Take.rIdx1 (m ((c : Thread nD τ).loc main_arg10)) := by
  refine (s2_v8 (W2 m ρ c)).trans ?_
  rw [W2_v5 m ρ c]
  rfl
private theorem W4_v9 (c : Dev nD) : W4 m ρ c (Proc.devRef .tc main_v9)
    = Take.hrTake (m ((c : Thread nD τ).loc main_arg1)) (m ((c : Thread nD τ).loc main_arg10)) := by
  refine (s3_v9 (W3 m ρ c)).trans ?_
  rw [W3_v8 m ρ c, W3_arg m ρ c main_arg1]
  rfl
theorem V8_v9 (c : Dev nD) : V8 m ρ c main_v9 = Take.hrTake (m ((c : Thread nD τ).loc main_arg1)) (m ((c : Thread nD τ).loc main_arg10)) :=
  (W8_keep m ρ c main_v9).trans <| (W7_keep m ρ c main_v9).trans <| (W6_keep m ρ c main_v9).trans <| (W5_keep m ρ c main_v9).trans (W4_v9 m ρ c)

private theorem W5_v11 (c : Dev nD) : W5 m ρ c (Proc.devRef .tc main_v11) = Take.qIdx1 (m ((c : Thread nD τ).loc main_arg9)) := by
  refine (s4_v11 (W4 m ρ c)).trans ?_
  rw [W4_arg m ρ c main_arg9]
private theorem W6_v12 (c : Dev nD) : W6 m ρ c (Proc.devRef .tc main_v12)
    = Take.qtTake (m ((c : Thread nD τ).loc main_arg1)) (m ((c : Thread nD τ).loc main_arg9)) := by
  refine (s5_v12 (W5 m ρ c)).trans ?_
  rw [W5_v11 m ρ c, W5_arg m ρ c main_arg1]
  rfl
private theorem W6_v1 (c : Dev nD) : W6 m ρ c (Proc.devRef .tc main_v1) = Take.bIdx (m ((c : Thread nD τ).loc main_arg10)) :=
  (W6_keep m ρ c main_v1).trans <| (W5_keep m ρ c main_v1).trans <| (W4_keep m ρ c main_v1).trans <| (W3_keep m ρ c main_v1).trans <|
    (W2_keep m ρ c main_v1).trans (W1_v1 m ρ c)
private theorem W7_v13 (c : Dev nD) : W7 m ρ c (Proc.devRef .tc main_v13)
    = Take.qrTake (m ((c : Thread nD τ).loc main_arg1)) (m ((c : Thread nD τ).loc main_arg9)) (m ((c : Thread nD τ).loc main_arg10)) := by
  refine (s6_v13 (W6 m ρ c)).trans ?_
  rw [W6_v12 m ρ c, W6_v1 m ρ c]
  rfl
theorem V8_v13 (c : Dev nD) : V8 m ρ c main_v13
    = Take.qrTake (m ((c : Thread nD τ).loc main_arg1)) (m ((c : Thread nD τ).loc main_arg9)) (m ((c : Thread nD τ).loc main_arg10)) :=
  (W8_keep m ρ c main_v13).trans (W7_v13 m ρ c)

theorem V8_v14 (c : Dev nD) : V8 m ρ c main_v14 = Cert.EdgeSpec.biasRow (m ((c : Thread nD τ).loc main_arg5)) := by
  refine (s7_v14 (W7 m ρ c)).trans ?_
  rw [W7_arg m ρ c main_arg5]
  funext i
  exact shapeCast_apply _ shapeCasts_S128_S1x128 i (ix1 (i 1))
    (by rewrite [Shape.rowMajor_val_two, Shape.rowMajor_val_one]; have h0 : (i 0).val < 1 := (i 0).isLt
        show (i 1).val = (i 0).val * 128 + (i 1).val; omega)
theorem V8_v15 (c : Dev nD) : V8 m ρ c main_v15 = Cert.EdgeSpec.attRow (m ((c : Thread nD τ).loc main_arg6)) := by
  refine (s7_v15 (W7 m ρ c)).trans ?_
  rw [W7_arg m ρ c main_arg6]
  funext i
  obtain ⟨p, q, rfl⟩ : ∃ (p : Fin 1) (q : Fin 128), i = ix2 p q := ⟨i 0, i 1, eq_ix2 i⟩
  obtain rfl : p = 0 := Subsingleton.elim _ _
  exact transpose_ix2_apply _ transposes_S128x1_S1x128_1_0 0 q
theorem V8_v16 (c : Dev nD) : V8 m ρ c main_v16 = Cert.EdgeSpec.offCell (m ((c : Thread nD τ).loc main_arg7)) := by
  refine (s7_v16 (W7 m ρ c)).trans ?_
  rw [W7_arg m ρ c main_arg7]
  funext i
  exact shapeCast_apply _ shapeCasts_S1_S1x1 i (ix1 0)
    (by rewrite [Shape.rowMajor_val_two, Shape.rowMajor_val_one]; have h0 : (i 0).val < 1 := (i 0).isLt; have h1 : (i 1).val < 1 := (i 1).isLt
        show 0 = (i 0).val * 1 + (i 1).val; omega)
theorem V8_arg2 (c : Dev nD) : V8 m ρ c main_arg2 = m ((c : Thread nD τ).loc main_arg2) := W8_arg m ρ c main_arg2
theorem V8_arg3 (c : Dev nD) : V8 m ρ c main_arg3 = m ((c : Thread nD τ).loc main_arg3) := W8_arg m ρ c main_arg3
theorem V8_arg4 (c : Dev nD) : V8 m ρ c main_arg4 = m ((c : Thread nD τ).loc main_arg4) := W8_arg m ρ c main_arg4

/-! ## At the projection kernel's entry -/

/-- The segment sum of an array of message rows at the tail indices. -/
def segSum (x11 : IVec S1000000 32) (msg : FVec Ideal S1000000x128 .f32) : FVec Ideal S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 x11) msg

private theorem s8_v20 (V : Valuation τ sig (Elt Ideal)) :
    StableHlo.after hostOps1 V (Proc.devRef .tc main_v20) = segSum (V (Proc.devRef .tc main_arg11)) (V (Proc.devRef .tc main_v17)) := by
  after_results <;> rfl
private theorem W9_arg11 (c : Dev nD) : W9 m ρ c (Proc.devRef .tc main_arg11) = m ((c : Thread nD τ).loc main_arg11) :=
  (W9_of_ne m ρ c main_arg11 (by decide)).trans (W8_arg m ρ c main_arg11)
private theorem W9_v17 (c : Dev nD) : W9 m ρ c (Proc.devRef .tc main_v17) = (dat0 (F := Ideal) (V8 m ρ) c).arrAt 9 cfg0.N :=
  W9_arr m ρ c 9

theorem V10_v20 (c : Dev nD) : V10 m ρ c main_v20
    = segSum (m ((c : Thread nD τ).loc main_arg11)) ((dat0 (F := Ideal) (V8 m ρ) c).arrAt 9 cfg0.N) := by
  refine (s8_v20 (W9 m ρ c)).trans ?_
  rw [W9_arg11 m ρ c, W9_v17 m ρ c]
theorem V10_arg8 (c : Dev nD) : V10 m ρ c main_arg8 = m ((c : Thread nD τ).loc main_arg8) :=
  (W10_keep m ρ c main_arg8).trans <| (W9_of_ne m ρ c main_arg8 (by decide)).trans (W8_arg m ρ c main_arg8)

end Cert.KernelIdeal.HostVal

end
-- ==== Proof.KRegion0.lean ====
/-
  The edge kernel's output array after its 200 grid points: the message of every edge.

  Point t holds rows 5000·t … 5000·t + 4999 of the three gathered arrays and the whole of the six small operands; its body
  stores, for each of its rows, gate · (he + hr) with the gate the logistic of the rectified pre-activation against the
  attention row. The body works row by row, so the block it writes is the restriction of the whole-array message to the
  point's rows, and the 200 blocks tile the array.
-/
import proofs.«419128_j63204738728140_1_alg».proof.Proof.Gen.KernelIdeal.Frame
import proofs.«419128_j63204738728140_1_alg».proof.Proof.EdgeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

/-! ## The matrix product of a row block with a 128 × 128 matrix, read at an index -/

private theorem lhsAxis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhsAxis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhsAxis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhsAxis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator at (r, k) is Σ_j x[r,j]·W[j,k]. -/
private theorem matmul_at {φ₁ φ₂ : FTy} (x : FVec Ideal S5000x128 φ₁) (W : FVec Ideal S128x128 φ₂) (r : Fin 5000) (k : Fin 128) :
    matmul dot_S5000x128_S128x128_S5000x128_1_0_0_1_n_n none x W (constant (F := Ideal) S5000x128 .f32 0x00000000#32) (ix2 r k)
      = ∑ j : Fin 128, x (ix2 r j) * W (ix2 j k) := by
  show FloatOps.matmul dot_S5000x128_S128x128_S5000x128_1_0_0_1_n_n none x W (constant (F := Ideal) S5000x128 .f32 0x00000000#32) (ix2 r k) = _
  rw [Ideal.matmul_constant_zero_apply, ← Equiv.sum_comp (ValueIdx.contrEquiv1 dot_S5000x128_S128x128_S5000x128_1_0_0_1_n_n 128 rfl rfl).symm]
  refine Finset.sum_congr rfl fun j _ => ?_
  have hk := ValueIdx.contrEquiv1_symm_val dot_S5000x128_S128x128_S5000x128_1_0_0_1_n_n 128 rfl rfl j
  have el : dot_S5000x128_S128x128_S5000x128_1_0_0_1_n_n.lhsIdx (ix2 r k) ((ValueIdx.contrEquiv1 dot_S5000x128_S128x128_S5000x128_1_0_0_1_n_n 128 rfl rfl).symm j) = ix2 r j := funext fun a => Fin.ext (by
    match a with
    | ⟨0, _⟩ => exact lhsAxis0 _ _
    | ⟨1, _⟩ => exact (lhsAxis1 _ _).trans hk)
  have er : dot_S5000x128_S128x128_S5000x128_1_0_0_1_n_n.rhsIdx (ix2 r k) ((ValueIdx.contrEquiv1 dot_S5000x128_S128x128_S5000x128_1_0_0_1_n_n 128 rfl rfl).symm j) = ix2 j k := funext fun a => Fin.ext (by
    match a with
    | ⟨0, _⟩ => exact (rhsAxis0 _ _).trans hk
    | ⟨1, _⟩ => exact rhsAxis1 _ _)
  rw [el, er]

/-! ## The keepdims column forms -/

/-- A vector of `a` entries cast to the column [a, 1] reads, at (p, 0), its entry p. -/
private theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column's entry p. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The zero offsets of a whole-block access. -/
private theorem hz : (![0, 0] : Fin 2 → Nat) = fun _ => 0 := funext fun a => by fin_cases a <;> rfl

/-- The sum over the 128 lanes of row r. -/
private theorem laneSum_at (src : FVec Ideal S5000x128 .f32) (hφ : FKind.Formats .f32)
    (hacc : (0x00000000#32 : BitVec FTy.f32.bits) = FKind.add.neutral .f32 hφ) (r : Fin 5000) :
    multiReduction (F := Ideal) .add [1] S5000 src 0x00000000#32 reduces_S5000x128_S5000 hφ hacc (ix1 r) = ∑ k : Fin 128, src (ix2 r k) := by
  refine (Ideal.multiReduction_add_single src 0x00000000#32 reduces_S5000x128_S5000 hφ hacc (ix1 r)).trans ?_
  refine Finset.sum_congr rfl fun k _ => congrArg src (funext fun a => Fin.ext ?_)
  match a with
  | ⟨0, _⟩ => rfl
  | ⟨1, _⟩ => rfl

/-- The attention logit of row r: the body's column [5000, 1] at (r, 0). -/
private theorem pay4_at (v0 v2 v4 : Vec Ideal S5000x128 .f32) (v9 v11 v13 : Vec Ideal S128x128 .f32) (v20 v26 : Vec Ideal S1x128 .f32) (v32 : Vec Ideal S1x1 .f32) (r : Fin 5000) :
    k0_pay4 v0 v2 v4 v9 v11 v13 v20 v26 v32 (ix2 r (0 : Fin 1)) = Cert.EdgeSpec.gateLogit v0 v2 v4 v9 v11 v13 v20 v26 v32 r := by
  unfold k0_pay4 k0_pay2 k0_pay3
  simp only [shapeCast_self]
  rw [addf_apply, shapeCast_a_a1_apply, broadcastTo_1b_ab_apply]
  unfold Cert.EdgeSpec.gateLogit
  refine congrArg (· + v32 (ix2 (0 : Fin 1) (0 : Fin 1))) ((laneSum_at _ _ _ r).trans (Finset.sum_congr rfl fun k _ => ?_))
  rw [mulf_apply, maximumf_apply, addf_apply, addf_apply, addf_apply, matmul_at, matmul_at, matmul_at, broadcastTo_1b_ab_apply,
    broadcastTo_1b_ab_apply, broadcast_apply]
  show max _ (Ideal.ofBits .f32 0x00000000#32) * _ = _
  rw [Ideal.ofBits_zero_f32]
  rfl

/-- The body's block: the message of the nine loaded blocks. -/
private theorem out_eq (x0 x1 x2 : Vec Ideal S5000x128 .f32) (x3 x4 x5 : Vec Ideal S128x128 .f32) (x6 x7 : Vec Ideal S1x128 .f32) (x8 : Vec Ideal S1x1 .f32) :
    out0_9 x0 x1 x2 x3 x4 x5 x6 x7 x8 = Cert.EdgeSpec.rowMsg (n := 5000) x0 x1 x2 x3 x4 x5 x6 x7 x8 := by
  unfold out0_9
  rw [View.canon_unit_zero hz]
  simp only [View.ld_unit_zero (S := S5000x128) hz, View.ld_unit_zero (S := S128x128) hz, View.ld_unit_zero (S := S1x128) hz, View.ld_unit_zero (S := S1x1) hz]
  funext i
  obtain ⟨r, k, rfl⟩ : ∃ (r : Fin 5000) (k : Fin 128), i = ix2 r k := ⟨i 0, i 1, eq_ix2 i⟩
  unfold k0_pay1
  rw [mulf_apply, broadcastTo_a1_ab_apply, addf_apply]
  show Ideal.logistic (k0_pay4 x0 x1 x2 x3 x4 x5 x6 x7 x8 (ix2 r (0 : Fin 1))) * (k0_pay2 x0 (ix2 r k) + k0_pay3 x1 (ix2 r k)) = _
  rw [pay4_at]
  unfold k0_pay2 k0_pay3
  simp only [shapeCast_self]
  rfl

variable (V : (c : Dev nD) → (b : Ref sig .tc) → Buf (Elt Ideal) ((c : Thread nD τ).loc b))

/-! ## From the 200 blocks to the array -/

/-- The printed index maps over the 200 points: the three gathered arrays and the output move one block of 5000 rows per point; the
    six small operands stay at block 0. -/
private theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row r of the block of point t, for the three gathered arrays and the output, is row 5000·t + r of the array. -/
private theorem emb0 (t : Fin cfg0.N) (r : Fin 5000) (k : Fin 128) (R : Fin 1000000) (hR : R.val = t.val * 5000 + r.val) :
    ((cfg0.win 0).blk t).view.emb (ix2 r k) = ix2 R k := by
  obtain ⟨⟨e0, e1⟩, -⟩ := idx_facts t
  funext a; apply Fin.ext
  match a with
  | ⟨0, _⟩ => show win0_0.index t (0 : Fin 2) * 5000 + 1 * r.val = R.val; omega
  | ⟨1, _⟩ => show win0_0.index t (1 : Fin 2) * 128 + 1 * k.val = k.val; omega

private theorem emb1 (t : Fin cfg0.N) (r : Fin 5000) (k : Fin 128) (R : Fin 1000000) (hR : R.val = t.val * 5000 + r.val) :
    ((cfg0.win 1).blk t).view.emb (ix2 r k) = ix2 R k := by
  obtain ⟨-, ⟨e0, e1⟩, -⟩ := idx_facts t
  funext a; apply Fin.ext
  match a with
  | ⟨0, _⟩ => show win0_1.index t (0 : Fin 2) * 5000 + 1 * r.val = R.val; omega
  | ⟨1, _⟩ => show win0_1.index t (1 : Fin 2) * 128 + 1 * k.val = k.val; omega

private theorem emb2 (t : Fin cfg0.N) (r : Fin 5000) (k : Fin 128) (R : Fin 1000000) (hR : R.val = t.val * 5000 + r.val) :
    ((cfg0.win 2).blk t).view.emb (ix2 r k) = ix2 R k := by
  obtain ⟨-, -, ⟨e0, e1⟩, -⟩ := idx_facts t
  funext a; apply Fin.ext
  match a with
  | ⟨0, _⟩ => show win0_2.index t (0 : Fin 2) * 5000 + 1 * r.val = R.val; omega
  | ⟨1, _⟩ => show win0_2.index t (1 : Fin 2) * 128 + 1 * k.val = k.val; omega

private theorem emb9 (t : Fin cfg0.N) (r : Fin 5000) (k : Fin 128) (R : Fin 1000000) (hR : R.val = t.val * 5000 + r.val) :
    ((cfg0.win 9).blk t).view.emb (ix2 r k) = ix2 R k := by
  obtain ⟨-, -, -, -, -, -, -, -, -, ⟨e0, e1⟩⟩ := idx_facts t
  funext a; apply Fin.ext
  match a with
  | ⟨0, _⟩ => show win0_9.index t (0 : Fin 2) * 5000 + 1 * r.val = R.val; omega
  | ⟨1, _⟩ => show win0_9.index t (1 : Fin 2) * 128 + 1 * k.val = k.val; omega

/-- The six small operands are whole at every point: the block is the array. -/
private theorem whole3 (c : Dev nD) (t : Fin cfg0.N) : (iblk0 V c 3 t : S128x128.Idx → EReal) = V c main_arg2 := by
  obtain ⟨-, -, -, ⟨e0, e1⟩, -⟩ := idx_facts t
  funext y
  show V c main_arg2 (((cfg0.win 3).blk t).view.emb y) = V c main_arg2 y
  refine congrArg (V c main_arg2) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

private theorem whole4 (c : Dev nD) (t : Fin cfg0.N) : (iblk0 V c 4 t : S128x128.Idx → EReal) = V c main_arg3 := by
  obtain ⟨-, -, -, -, ⟨e0, e1⟩, -⟩ := idx_facts t
  funext y
  show V c main_arg3 (((cfg0.win 4).blk t).view.emb y) = V c main_arg3 y
  refine congrArg (V c main_arg3) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

private theorem whole5 (c : Dev nD) (t : Fin cfg0.N) : (iblk0 V c 5 t : S128x128.Idx → EReal) = V c main_arg4 := by
  obtain ⟨-, -, -, -, -, ⟨e0, e1⟩, -⟩ := idx_facts t
  funext y
  show V c main_arg4 (((cfg0.win 5).blk t).view.emb y) = V c main_arg4 y
  refine congrArg (V c main_arg4) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

private theorem whole6 (c : Dev nD) (t : Fin cfg0.N) : (iblk0 V c 6 t : S1x128.Idx → EReal) = V c main_v14 := by
  obtain ⟨-, -, -, -, -, -, ⟨e0, e1⟩, -⟩ := idx_facts t
  funext y
  show V c main_v14 (((cfg0.win 6).blk t).view.emb y) = V c main_v14 y
  refine congrArg (V c main_v14) (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

private theorem whole7 (c : Dev nD) (t : Fin cfg0.N) : (iblk0 V c 7 t : S1x128.Idx → EReal) = V c main_v15 := by
  obtain ⟨-, -, -, -, -, -, -, ⟨e0, e1⟩, -⟩ := idx_facts t
  funext y
  show V c main_v15 (((cfg0.win 7).blk t).view.emb y) = V c main_v15 y
  refine congrArg (V c main_v15) (funext fun a => Fin.ext ?_)
  match a with
  | ⟨0, _⟩ => show win0_7.index t (0 : Fin 2) * 1 + 1 * (y 0).val = (y 0).val; omega
  | ⟨1, _⟩ => show win0_7.index t (1 : Fin 2) * 128 + 1 * (y 1).val = (y 1).val; omega

private theorem whole8 (c : Dev nD) (t : Fin cfg0.N) : (iblk0 V c 8 t : S1x1.Idx → EReal) = V c main_v16 := by
  obtain ⟨-, -, -, -, -, -, -, -, ⟨e0, e1⟩, -⟩ := idx_facts t
  funext y
  show V c main_v16 (((cfg0.win 8).blk t).view.emb y) = V c main_v16 y
  refine congrArg (V c main_v16) (funext fun a => Fin.ext ?_)
  match a with
  | ⟨0, _⟩ => show win0_8.index t (0 : Fin 2) * 1 + 1 * (y 0).val = (y 0).val; omega
  | ⟨1, _⟩ => show win0_8.index t (1 : Fin 2) * 1 + 1 * (y 1).val = (y 1).val; omega

/-- What point t writes back is block t of the whole-array message. -/
private theorem flushed_eq (c : Dev nD) (t : Fin cfg0.N) :
    (dat0 (F := Ideal) V c).flushed 9 t = ((cfg0.win 9).blk t).view.read (Elt Ideal)
      (Cert.EdgeSpec.rowMsg (n := 1000000) (V c main_v6) (V c main_v9) (V c main_v13) (V c main_arg2) (V c main_arg3) (V c main_arg4)
        (V c main_v14) (V c main_v15) (V c main_v16)) := by
  show (cfg0.win 9).cut (grid0.coords t) ((dat0 V c).after 9 t) = _
  rw [after0_9]
  have e := out_eq (iblk0 V c 0 t) (iblk0 V c 1 t) (iblk0 V c 2 t) (iblk0 V c 3 t) (iblk0 V c 4 t) (iblk0 V c 5 t) (iblk0 V c 6 t)
    (iblk0 V c 7 t) (iblk0 V c 8 t)
  rw [e, whole3 V c t, whole4 V c t, whole5 V c t, whole6 V c t, whole7 V c t, whole8 V c t]
  funext j
  obtain ⟨r, k, rfl⟩ : ∃ (r : Fin 5000) (k : Fin 128), j = ix2 r k := ⟨j 0, j 1, eq_ix2 j⟩
  have hN : grid0.N = 200 := N_0
  have ht : t.val < grid0.N := t.isLt
  obtain ⟨R, hR⟩ : ∃ R : Fin 1000000, R.val = t.val * 5000 + r.val := ⟨⟨t.val * 5000 + r.val, by omega⟩, rfl⟩
  show Cert.EdgeSpec.rowMsg (n := 5000) (iblk0 V c 0 t) (iblk0 V c 1 t) (iblk0 V c 2 t) (V c main_arg2) (V c main_arg3) (V c main_arg4)
      (V c main_v14) (V c main_v15) (V c main_v16) (ix2 r k)
    = Cert.EdgeSpec.rowMsg (n := 1000000) (V c main_v6) (V c main_v9) (V c main_v13) (V c main_arg2) (V c main_arg3) (V c main_arg4)
      (V c main_v14) (V c main_v15) (V c main_v16) (((cfg0.win 9).blk t).view.emb (ix2 r k))
  rw [emb9 t r k R hR]
  refine Cert.EdgeSpec.rowMsg_congr _ _ _ _ _ _ _ _ _ _ _ _ r R (fun j => ?_) (fun j => ?_) (fun j => ?_) k
  · show V c main_v6 (((cfg0.win 0).blk t).view.emb (ix2 r j)) = V c main_v6 (ix2 R j)
    rw [emb0 t r j R hR]
  · show V c main_v9 (((cfg0.win 1).blk t).view.emb (ix2 r j)) = V c main_v9 (ix2 R j)
    rw [emb1 t r j R hR]
  · show V c main_v13 (((cfg0.win 2).blk t).view.emb (ix2 r j)) = V c main_v13 (ix2 R j)
    rw [emb2 t r j R hR]

/-- An index of the array is in point t's block iff each coordinate is in the block's range on its axis. -/
private theorem mem_blk (t : Fin cfg0.N) (i : S1000000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v17).slice (win0_9.rect t)).set ↔ _
  rw [View.set_slice_whole, Rect.mem_set_unit]
  exact Iff.rfl

/-- The 200 blocks of 5000 rows tile the 1000000 rows: row i is in the block of point i / 5000. -/
private theorem cover (i : S1000000x128.Idx) : ∃ t : Fin cfg0.N, (cfg0.win 9).flush t = true ∧ i ∈ ((cfg0.win 9).blk t).view.set := by
  have hi0 : (i 0).val < 1000000 := (i 0).isLt
  have hi1 : (i 1).val < 128 := (i 1).isLt
  have hN : grid0.N = 200 := N_0
  obtain ⟨t, ht⟩ : ∃ t : Fin cfg0.N, t.val = (i 0).val / 5000 := ⟨⟨(i 0).val / 5000, by show _ < grid0.N; omega⟩, rfl⟩
  refine ⟨t, flush0_9 t, ?_⟩
  rw [mem_blk]
  obtain ⟨-, -, -, -, -, -, -, -, -, ⟨e0, e1⟩⟩ := idx_facts t
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- After the last point the output array is the message of the arrays the region found. -/
theorem final (c : Dev nD) :
    (dat0 (F := Ideal) V c).arrAt 9 cfg0.N
      = Cert.EdgeSpec.rowMsg (n := 1000000) (V c main_v6) (V c main_v9) (V c main_v13) (V c main_arg2) (V c main_arg3) (V c main_arg4)
          (V c main_v14) (V c main_v15) (V c main_v16) :=
  (dat0 (F := Ideal) V c).arrAt_eq_of_cover 9 _ (fun t _ => flushed_eq V c t) cover

end Cert.KernelIdeal.Region0

end
-- ==== Proof.KRegion1.lean ====
/-
  The projection kernel's output array after its 10 grid points: agg · Wh.

  Point t holds rows 10000·t … 10000·t + 9999 of the aggregated array and the whole of Wh, and stores their product, a
  matrix-unit product into a zero accumulator: entry (r, k) is Σ_j a[r,j]·Wh[j,k]. The ten blocks tile the array.
-/
import proofs.«419128_j63204738728140_1_alg».proof.Proof.Gen.KernelIdeal.Frame
import proofs.«419128_j63204738728140_1_alg».proof.Proof.EdgeSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

/-! ## The stored product at an index -/

/-- The left operand's index at output index `i` and contraction index `q`: the output's row … -/
theorem lhs_row (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- … and the contraction index as its column. -/
theorem lhs_col (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's index: the contraction index as its row … -/
theorem rhs_row (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- … and the output's column. -/
theorem rhs_col (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The stored value at (r, k): Σ_j x0[r,j]·x1[j,k] — the format changes are identities on the extended reals, the
    accumulator is zero. -/
theorem pay_apply (x0 : Vec Ideal S10000x128 .f32) (x1 : Vec Ideal S128x128 .f32) (r : Fin 10000) (k : Fin 128) :
    k1_pay1 (F := Ideal) x0 x1 (ix2 r k) = Cert.EdgeSpec.rowDot (n := 10000) x0 x1 r k := by
  unfold k1_pay1
  rw [shapeCast_self]
  refine (Ideal.matmul_constant_zero_apply dot_S10000x128_S128x128_S10000x128_1_0_0_1_n_n none _ _ (ix2 r k)).trans ?_
  rw [← Equiv.sum_comp (ValueIdx.contrEquiv1 dot_S10000x128_S128x128_S10000x128_1_0_0_1_n_n 128 rfl rfl).symm]
  refine Finset.sum_congr rfl fun j _ => ?_
  have hj := ValueIdx.contrEquiv1_symm_val dot_S10000x128_S128x128_S10000x128_1_0_0_1_n_n 128 rfl rfl j
  have el : dot_S10000x128_S128x128_S10000x128_1_0_0_1_n_n.lhsIdx (ix2 r k) ((ValueIdx.contrEquiv1 dot_S10000x128_S128x128_S10000x128_1_0_0_1_n_n 128 rfl rfl).symm j) = ix2 r j := funext fun a => Fin.ext (by
    match a with
    | ⟨0, _⟩ => exact lhs_row _ _
    | ⟨1, _⟩ => exact (lhs_col _ _).trans hj)
  have er : dot_S10000x128_S128x128_S10000x128_1_0_0_1_n_n.rhsIdx (ix2 r k) ((ValueIdx.contrEquiv1 dot_S10000x128_S128x128_S10000x128_1_0_0_1_n_n 128 rfl rfl).symm j) = ix2 j k := funext fun a => Fin.ext (by
    match a with
    | ⟨0, _⟩ => exact (rhs_row _ _).trans hj
    | ⟨1, _⟩ => exact rhs_col _ _)
  rw [el, er]
  rfl

/-! ## What the body leaves in the output buffer -/

theorem hz : (![0, 0] : Fin 2 → Nat) = fun _ => 0 := funext fun a => by fin_cases a <;> rfl

/-- The body's one store fills the buffer with the projection of the row block it loaded. -/
theorem out_eq (x0 : Vec Ideal S10000x128 .f32) (x1 : Vec Ideal S128x128 .f32) :
    out1_2 (F := Ideal) x0 x1 = Cert.EdgeSpec.rowProj (n := 10000) x0 x1 := by
  unfold out1_2
  rw [View.canon_unit_zero hz]
  simp only [View.ld_unit_zero (S := S10000x128) hz, View.ld_unit_zero (S := S128x128) hz]
  funext j
  obtain ⟨r, k, rfl⟩ : ∃ (r : Fin 10000) (k : Fin 128), j = ix2 r k := ⟨j 0, j 1, eq_ix2 j⟩
  exact pay_apply x0 x1 r k

/-! ## Point t's blocks, read off the arrays -/

/-- The windows' block indices over the ten points: the row windows sit at block row `t`, block column 0; the matrix
    window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- Row `R` = 10000·t + r of the whole-array projection is row `r` of the projection of a block that holds rows
    10000·t … of the array, against the same matrix. -/
theorem proj_block (A : Vec Ideal S100000x128 .f32) (W x1 : Vec Ideal S128x128 .f32) (x0 : Vec Ideal S10000x128 .f32)
    (r : Fin 10000) (k : Fin 128) (R : Fin 100000) (hx1 : x1 = W) (hx0 : ∀ q : Fin 128, x0 (ix2 r q) = A (ix2 R q)) :
    Cert.EdgeSpec.rowProj (n := 10000) x0 x1 (ix2 r k) = Cert.EdgeSpec.rowProj (n := 100000) A W (ix2 R k) := by
  subst hx1
  exact Cert.EdgeSpec.rowProj_congr x0 A x1 r R hx0 k

/-- Every block row is some point's. -/
theorem idx_onto : ∀ q : Fin 10, ∃ t : Fin cfg1.N, win1_2.index t (0 : Fin 2) = q.val ∧ win1_2.index t (1 : Fin 2) = 0 :=
  (by decide +kernel : ∀ q : Fin 10, ∃ t : Fin grid1.N, _)

/-- An index of the array is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v21).slice (win1_2.rect t)).set ↔ _
  rw [View.set_slice_whole, Rect.mem_set_unit]
  exact Iff.rfl

/-- The ten blocks of 10000 rows tile the array: row `R` is in the block of point `R / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, q0, q1⟩ := idx_onto ⟨(i 0).val / 10000, by omega⟩
  have q0' : win1_2.index t (0 : Fin 2) = (i 0).val / 10000 := q0
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

variable (V : (c : Dev nD) → (b : Ref sig .tc) → Buf (Elt Ideal) ((c : Thread nD τ).loc b))

/-- Point `t`'s block of the aggregated rows is rows 10000·t … 10000·t + 9999 of the array. -/
theorem rows_at (c : Dev nD) (t : Fin cfg1.N) (r : Fin 10000) (q : Fin 128) (R : Fin 100000) (hR : R.val = t.val * 10000 + r.val) :
    (iblk1 V c 0 t : Vec Ideal S10000x128 .f32) (ix2 r q) = (V c main_v20 : S100000x128.Idx → Elt Ideal .f32) (ix2 R q) := by
  obtain ⟨e0, e1, -⟩ := idx_facts t
  unfold iblk1
  rw [View.read_apply]
  show V c main_v20 _ = V c main_v20 _
  congr 1
  funext a
  apply Fin.ext
  match a with
  | ⟨0, _⟩ => show win1_0.index t (0 : Fin 2) * 10000 + 1 * r.val = R.val; rw [e0, hR]; omega
  | ⟨1, _⟩ => show win1_0.index t (1 : Fin 2) * 128 + 1 * q.val = q.val; rw [e1]; omega

/-- Point `t`'s block of the matrix is the whole matrix. -/
theorem matrix_at (c : Dev nD) (t : Fin cfg1.N) :
    (iblk1 V c 1 t : Vec Ideal S128x128 .f32) = (V c main_arg8 : S128x128.Idx → Elt Ideal .f32) := by
  obtain ⟨-, -, e2, e3, -⟩ := idx_facts t
  funext y
  unfold iblk1
  rw [View.read_apply]
  show V c main_arg8 _ = V c main_arg8 _
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-! ## What a point writes back, and the cover -/

/-- What point `t` writes back is block `t` of the whole-array projection. -/
theorem flushed_eq (c : Dev nD) (t : Fin cfg1.N) :
    (dat1 (F := Ideal) V c).flushed 2 t
      = ((cfg1.win 2).blk t).view.read (Elt Ideal) (Cert.EdgeSpec.rowProj (n := 100000) (V c main_v20) (V c main_arg8)) := by
  show (cfg1.win 2).cut (grid1.coords t) ((dat1 V c).after 2 t) = _
  rw [after1_2]
  obtain ⟨-, -, -, -, e4, e5, ht⟩ := idx_facts t
  funext j
  have hj0 : (j 0).val < 10000 := (j 0).isLt
  have hj1 : (j 1).val < 128 := (j 1).isLt
  have hxi : (cfg1.win 2).xinj (grid1.coords t) j = ix2 (⟨(j 0).val, hj0⟩ : Fin 10000) (⟨(j 1).val, hj1⟩ : Fin 128) := by
    funext a; apply Fin.ext
    match a with
    | ⟨0, _⟩ => rfl
    | ⟨1, _⟩ => rfl
  have hemb : ((cfg1.win 2).blk t).view.emb j = ix2 (⟨t.val * 10000 + (j 0).val, by omega⟩ : Fin 100000) (⟨(j 1).val, hj1⟩ : Fin 128) := by
    funext a; apply Fin.ext
    match a with
    | ⟨0, _⟩ => show win1_2.index t (0 : Fin 2) * 10000 + 1 * (j 0).val = t.val * 10000 + (j 0).val; rw [e4]; omega
    | ⟨1, _⟩ => show win1_2.index t (1 : Fin 2) * 128 + 1 * (j 1).val = (j 1).val; rw [e5]; omega
  show out1_2 (iblk1 V c 0 t) (iblk1 V c 1 t) ((cfg1.win 2).xinj (grid1.coords t) j)
    = Cert.EdgeSpec.rowProj (n := 100000) (V c main_v20) (V c main_arg8) (((cfg1.win 2).blk t).view.emb j)
  rw [hxi, hemb]
  refine (congrFun (out_eq (iblk1 V c 0 t) (iblk1 V c 1 t)) _).trans ?_
  exact proj_block (V c main_v20) (V c main_arg8) (iblk1 V c 1 t) (iblk1 V c 0 t) _ _ _ (matrix_at V c t)
    (fun q => rows_at V c t _ q _ rfl)

/-- After the last point the output array is the projection of the arrays the region found. -/
theorem final (c : Dev nD) :
    (dat1 (F := Ideal) V c).arrAt 2 cfg1.N = Cert.EdgeSpec.rowProj (n := 100000) (V c main_v20) (V c main_arg8) := by
  exact (dat1 (F := Ideal) V c).arrAt_eq_of_cover 2 (Cert.EdgeSpec.rowProj (n := 100000) (V c main_v20) (V c main_arg8))
    (fun t _ => flushed_eq V c t) cover

end Cert.KernelIdeal.Region1

end
-- ==== Proof.RefValue.lean ====
/-
  The reference's result, read as the same two whole-array functions.

  Its message array is, index by index, gate · (he + hr) of the three indexed row arrays, with the pre-activation summed
  as (he·Ws + hr·Wr) + (qr·Wq + b): the same four terms as the kernel's ((he·Ws + hr·Wr) + qr·Wq) + b, by associativity
  of addition on the extended reals. Its gate spells the logistic as 1 / (1 + exp (−x)), which is the logistic.
  The rectifier is max(·, 0) on both sides, the attention product a contraction over the 128 columns. The result is the
  projection Σ_j agg[t,j]·Wh[j,k] of the segment sum of that message array.
-/
import proofs.«419128_j63204738728140_1_alg».proof.Proof.Gen.ReferenceIdeal.Read
import proofs.«419128_j63204738728140_1_alg».proof.Proof.EdgeSpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe Idealize.SL.Sem
open Idealize.ShloMosaic.ValueIdx

/-- The segment sum of an array of message rows at the tail indices. -/
def segSum (x11 : IVec S1000000 32) (msg : FVec Ideal S1000000x128 .f32) : FVec Ideal S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 x11) msg

/-- The reference's pre-activation at row `e`, column `k`: the four terms summed as (he·Ws + hr·Wr) + (qr·Wq + b), which is
    the specification's ((he·Ws + hr·Wr) + qr·Wq) + b by associativity of addition on the extended reals. -/
private theorem pre_apply (x0 : FVec Ideal S200000x128 .f32) (x1 : FVec Ideal S481x128 .f32) (x2 x3 x4 : FVec Ideal S128x128 .f32)
    (x5 : FVec Ideal S128 .f32) (x9 : IVec S512 32) (x10 : IVec S1000000x6 32) (e : Fin 1000000) (k : Fin 128) :
    val_main_v45 (F := Ideal) x0 x1 x2 x3 x4 x5 x9 x10 (ix2 e k)
      = Cert.EdgeSpec.preAct (n := 1000000) (val_main_v12 (F := Ideal) x0 x10) (val_main_v21 (F := Ideal) x1 x10) (val_main_v37 (F := Ideal) x1 x9 x10)
          x2 x3 x4 (Cert.EdgeSpec.biasRow x5) e k := by
  rw [val_main_v45_apply, val_main_v40_apply, val_main_v44_apply, val_main_v38_apply, val_main_v39_apply, val_main_v41_apply,
    val_main_v43_apply, val_main_v42_apply]
  generalize val_main_v12 (F := Ideal) x0 x10 = he
  generalize val_main_v21 (F := Ideal) x1 x10 = hr
  generalize val_main_v37 (F := Ideal) x1 x9 x10 = qr
  have hl38 : ∀ j : Fin 128, lidx_main_v38 (ix2 e k) j = ix2 e j := fun j => funext fun a => by
    match a with | ⟨0, _⟩ => rfl | ⟨1, _⟩ => rfl
  have hr38 : ∀ j : Fin 128, ridx_main_v38 (ix2 e k) j = ix2 j k := fun j => funext fun a => by
    match a with | ⟨0, _⟩ => rfl | ⟨1, _⟩ => rfl
  have hl39 : ∀ j : Fin 128, lidx_main_v39 (ix2 e k) j = ix2 e j := fun j => funext fun a => by
    match a with | ⟨0, _⟩ => rfl | ⟨1, _⟩ => rfl
  have hr39 : ∀ j : Fin 128, ridx_main_v39 (ix2 e k) j = ix2 j k := fun j => funext fun a => by
    match a with | ⟨0, _⟩ => rfl | ⟨1, _⟩ => rfl
  have hl41 : ∀ j : Fin 128, lidx_main_v41 (ix2 e k) j = ix2 e j := fun j => funext fun a => by
    match a with | ⟨0, _⟩ => rfl | ⟨1, _⟩ => rfl
  have hr41 : ∀ j : Fin 128, ridx_main_v41 (ix2 e k) j = ix2 j k := fun j => funext fun a => by
    match a with | ⟨0, _⟩ => rfl | ⟨1, _⟩ => rfl
  have hb : idx_main_v42 (idx_main_v43 (ix2 e k)) = ix1 k := funext fun a => by
    match a with | ⟨0, _⟩ => rfl
  simp only [hl38, hr38, hl39, hr39, hl41, hr41, hb, Ideal.addf_def]
  exact (add_assoc _ _ _).symm

/-- The reference's gate at row `e`: 1 / (1 + exp (−x)) at the attention logit x of that row, which is the logistic of x.
    The logit is the contraction of the rectified pre-activation with the attention column, plus the offset. -/
private theorem gate_apply (x0 : FVec Ideal S200000x128 .f32) (x1 : FVec Ideal S481x128 .f32) (x2 x3 x4 : FVec Ideal S128x128 .f32)
    (x5 : FVec Ideal S128 .f32) (x6 : FVec Ideal S128x1 .f32) (x7 : FVec Ideal S1 .f32) (x9 : IVec S512 32) (x10 : IVec S1000000x6 32)
    (e : Fin 1000000) :
    val_main_v56 (F := Ideal) x0 x1 x2 x3 x4 x5 x6 x7 x9 x10 (ix2 e (0 : Fin 1))
      = Ideal.logistic (Cert.EdgeSpec.gateLogit (n := 1000000) (val_main_v12 (F := Ideal) x0 x10) (val_main_v21 (F := Ideal) x1 x10)
          (val_main_v37 (F := Ideal) x1 x9 x10) x2 x3 x4 (Cert.EdgeSpec.biasRow x5) (Cert.EdgeSpec.attRow x6) (Cert.EdgeSpec.offCell x7) e) := by
  rw [val_main_v56_apply, val_main_v55_apply, val_main_cst_9_apply, val_main_v54_apply, val_main_v53_apply, val_main_cst_apply,
    val_main_v52_apply, val_main_v51_apply, val_main_v50_apply, val_main_v47_apply, val_main_v49_apply, val_main_v48_apply]
  have hl : ∀ j : Fin 128, lidx_main_v47 (ix2 e (0 : Fin 1)) j = ix2 e j := fun j => funext fun a => by
    match a with | ⟨0, _⟩ => rfl | ⟨1, _⟩ => rfl
  have hr : ∀ j : Fin 128, ridx_main_v47 (ix2 e (0 : Fin 1)) j = ix2 j (0 : Fin 1) := fun j => funext fun a => by
    match a with | ⟨0, _⟩ => rfl | ⟨1, _⟩ => rfl
  have ho : idx_main_v48 (idx_main_v49 (ix2 e (0 : Fin 1))) = ix1 (0 : Fin 1) := funext fun a => by
    match a with | ⟨0, _⟩ => rfl
  simp only [hl, hr, ho, val_main_v46_apply, val_main_call0_v0_apply, val_main_call0_cst_apply, pre_apply,
    Ideal.ofBits_def, Ideal.ofBits_one_f32, Ideal.ofBits_zero_f32]
  generalize val_main_v12 (F := Ideal) x0 x10 = he
  generalize val_main_v21 (F := Ideal) x1 x10 = hr'
  generalize val_main_v37 (F := Ideal) x1 x9 x10 = qr
  rfl

/-- The reference's message array is the message of its three indexed row arrays. -/
theorem message_eq (x0 : FVec Ideal S200000x128 .f32) (x1 : FVec Ideal S481x128 .f32) (x2 x3 x4 : FVec Ideal S128x128 .f32)
    (x5 : FVec Ideal S128 .f32) (x6 : FVec Ideal S128x1 .f32) (x7 : FVec Ideal S1 .f32) (x9 : IVec S512 32) (x10 : IVec S1000000x6 32) :
    val_main_v59 (F := Ideal) x0 x1 x2 x3 x4 x5 x6 x7 x9 x10
      = Cert.EdgeSpec.rowMsg (n := 1000000) (val_main_v12 (F := Ideal) x0 x10) (val_main_v21 (F := Ideal) x1 x10) (val_main_v37 (F := Ideal) x1 x9 x10)
          x2 x3 x4 (Cert.EdgeSpec.biasRow x5) (Cert.EdgeSpec.attRow x6) (Cert.EdgeSpec.offCell x7) := by
  funext i
  obtain ⟨e, k, rfl⟩ : ∃ (e : Fin 1000000) (k : Fin 128), i = ix2 e k := ⟨i 0, i 1, eq_ix2 i⟩
  have h58 : idx_main_v58 (ix2 e k) = ix2 e (0 : Fin 1) := funext fun a => by
    match a with | ⟨0, _⟩ => rfl | ⟨1, _⟩ => rfl
  rw [val_main_v59_apply, val_main_v58_apply, h58, gate_apply, val_main_v57_apply]
  generalize val_main_v12 (F := Ideal) x0 x10 = he
  generalize val_main_v21 (F := Ideal) x1 x10 = hr
  generalize val_main_v37 (F := Ideal) x1 x9 x10 = qr
  rfl

/-- The reference's result is the projection of the segment sum of that message. -/
theorem result_eq (x0 : FVec Ideal S200000x128 .f32) (x1 : FVec Ideal S481x128 .f32) (x2 x3 x4 : FVec Ideal S128x128 .f32)
    (x5 : FVec Ideal S128 .f32) (x6 : FVec Ideal S128x1 .f32) (x7 : FVec Ideal S1 .f32) (x8 : FVec Ideal S128x128 .f32)
    (x9 : IVec S512 32) (x10 : IVec S1000000x6 32) (x11 : IVec S1000000 32) :
    val_main_v63 (F := Ideal) x0 x1 x2 x3 x4 x5 x6 x7 x8 x9 x10 x11
      = Cert.EdgeSpec.rowProj (n := 100000) (segSum x11 (Cert.EdgeSpec.rowMsg (n := 1000000) (val_main_v12 (F := Ideal) x0 x10) (val_main_v21 (F := Ideal) x1 x10)
          (val_main_v37 (F := Ideal) x1 x9 x10) x2 x3 x4 (Cert.EdgeSpec.biasRow x5) (Cert.EdgeSpec.attRow x6) (Cert.EdgeSpec.offCell x7))) x8 := by
  have h62 : val_main_v62 (F := Ideal) x0 x1 x2 x3 x4 x5 x6 x7 x9 x10 x11
      = segSum x11 (Cert.EdgeSpec.rowMsg (n := 1000000) (val_main_v12 (F := Ideal) x0 x10) (val_main_v21 (F := Ideal) x1 x10)
          (val_main_v37 (F := Ideal) x1 x9 x10) x2 x3 x4 (Cert.EdgeSpec.biasRow x5) (Cert.EdgeSpec.attRow x6) (Cert.EdgeSpec.offCell x7)) := by
    unfold val_main_v62 segSum
    rw [message_eq]
    rfl
  funext i
  obtain ⟨t, k, rfl⟩ : ∃ (t : Fin 100000) (k : Fin 128), i = ix2 t k := ⟨i 0, i 1, eq_ix2 i⟩
  have hl : ∀ j : Fin 128, lidx_main_v63 (ix2 t k) j = ix2 t j := fun j => funext fun a => by
    match a with | ⟨0, _⟩ => rfl | ⟨1, _⟩ => rfl
  have hr : ∀ j : Fin 128, ridx_main_v63 (ix2 t k) j = ix2 j k := fun j => funext fun a => by
    match a with | ⟨0, _⟩ => rfl | ⟨1, _⟩ => rfl
  rw [val_main_v63_apply, h62]
  simp only [hl, hr]
  rfl

end Cert.ReferenceIdeal.RefVal

end
-- ==== Proof.Claims.lean ====
/-
  The five claims, assembled.

  The kernel's program ends with its result buffer at the projection kernel's output array; that array is the projection
  of the segment sum of the edge kernel's output array, which is the message of the three `jnp.take`s; on admitted inputs
  those are plain indexed rows. The reference's run ends at the projection of the segment sum of the message of the same
  indexed rows. The two programs spell the indexed rows and the segment sum with the same operations, so the two results
  are one term of the arguments.
-/
import proofs.«419128_j63204738728140_1_alg».proof.Defs
import proofs.«419128_j63204738728140_1_alg».proof.Proof.Gen.Kernel.Frame
import proofs.«419128_j63204738728140_1_alg».proof.Proof.Gen.KernelIdeal.Frame
import proofs.«419128_j63204738728140_1_alg».proof.Proof.Gen.ReferenceIdeal.Run
import proofs.«419128_j63204738728140_1_alg».proof.Proof.Gen.ReferenceIdeal.Read
import proofs.«419128_j63204738728140_1_alg».proof.Proof.Gen.Pre_finite_inputs
import proofs.«419128_j63204738728140_1_alg».proof.Proof.EdgeSpec
import proofs.«419128_j63204738728140_1_alg».proof.Proof.KernelLaunch
import proofs.«419128_j63204738728140_1_alg».proof.Proof.KTake
import proofs.«419128_j63204738728140_1_alg».proof.Proof.KHost
import proofs.«419128_j63204738728140_1_alg».proof.Proof.KRegion0
import proofs.«419128_j63204738728140_1_alg».proof.Proof.KRegion1
import proofs.«419128_j63204738728140_1_alg».proof.Proof.RefValue

noncomputable section

open Idealize.ShloMosaic Idealize.ShloMosaic.TcCoe Idealize.SL.Sem

namespace Cert.Proof.Bridge

/-! ## The two programs' indexed rows and segment sums are the same terms -/

theorem he_same (x0 : FVec Ideal Cert.KernelIdeal.S200000x128 .f32) (x10 : IVec Cert.KernelIdeal.S1000000x6 32) :
    Cert.KernelIdeal.Take.heArr x0 x10 = Cert.ReferenceIdeal.Read.val_main_v12 (F := Ideal) x0 x10 := rfl
theorem hr_same (x1 : FVec Ideal Cert.KernelIdeal.S481x128 .f32) (x10 : IVec Cert.KernelIdeal.S1000000x6 32) :
    Cert.KernelIdeal.Take.hrArr x1 x10 = Cert.ReferenceIdeal.Read.val_main_v21 (F := Ideal) x1 x10 := rfl
theorem qr_same (x1 : FVec Ideal Cert.KernelIdeal.S481x128 .f32) (x9 : IVec Cert.KernelIdeal.S512 32) (x10 : IVec Cert.KernelIdeal.S1000000x6 32) :
    Cert.KernelIdeal.Take.qrArr x1 x9 x10 = Cert.ReferenceIdeal.Read.val_main_v37 (F := Ideal) x1 x9 x10 := rfl
theorem seg_same (x11 : IVec Cert.KernelIdeal.S1000000 32) (msg : FVec Ideal Cert.KernelIdeal.S1000000x128 .f32) :
    Cert.KernelIdeal.HostVal.segSum x11 msg = Cert.ReferenceIdeal.RefVal.segSum x11 msg := rfl

/-! ## The kernel's result -/

open Cert.KernelIdeal Cert.KernelIdeal.Gen in
/-- On an admitted memory the fold's final contents of the result buffer is the projection of the segment sum of the
    message of the plainly indexed rows. -/
theorem kernel_result (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    W11 m ρ c (Proc.devRef .tc main_v21)
      = Cert.EdgeSpec.rowProj (n := 100000)
          (Cert.KernelIdeal.HostVal.segSum (m ((c : Thread nD τ).loc main_arg11))
            (Cert.EdgeSpec.rowMsg (n := 1000000)
              (Cert.KernelIdeal.Take.heArr (m ((c : Thread nD τ).loc main_arg0)) (m ((c : Thread nD τ).loc main_arg10)))
              (Cert.KernelIdeal.Take.hrArr (m ((c : Thread nD τ).loc main_arg1)) (m ((c : Thread nD τ).loc main_arg10)))
              (Cert.KernelIdeal.Take.qrArr (m ((c : Thread nD τ).loc main_arg1)) (m ((c : Thread nD τ).loc main_arg9)) (m ((c : Thread nD τ).loc main_arg10)))
              (m ((c : Thread nD τ).loc main_arg2)) (m ((c : Thread nD τ).loc main_arg3)) (m ((c : Thread nD τ).loc main_arg4))
              (Cert.EdgeSpec.biasRow (m ((c : Thread nD τ).loc main_arg5))) (Cert.EdgeSpec.attRow (m ((c : Thread nD τ).loc main_arg6)))
              (Cert.EdgeSpec.offCell (m ((c : Thread nD τ).loc main_arg7)))))
          (m ((c : Thread nD τ).loc main_arg8)) := by
  have hr : Cert.KernelIdeal.Take.InRange (m ((c : Thread nD τ).loc main_arg9)) (m ((c : Thread nD τ).loc main_arg10)) :=
    Cert.KernelIdeal.Take.inRange_of_pre _ _ _ _ _ _ _ _ _ _ _ _ _ (hpre c)
  rw [show W11 m ρ c (Proc.devRef .tc main_v21) = (dat1 (F := Ideal) (V10 m ρ) c).arrAt 2 cfg1.N from W11_arr m ρ c 2,
    Cert.KernelIdeal.Region1.final (V10 m ρ) c, Cert.KernelIdeal.HostVal.V10_v20 m ρ c, Cert.KernelIdeal.HostVal.V10_arg8 m ρ c,
    Cert.KernelIdeal.Region0.final (V8 m ρ) c,
    Cert.KernelIdeal.HostVal.V8_v6 m ρ c, Cert.KernelIdeal.HostVal.V8_v9 m ρ c, Cert.KernelIdeal.HostVal.V8_v13 m ρ c,
    Cert.KernelIdeal.HostVal.V8_v14 m ρ c, Cert.KernelIdeal.HostVal.V8_v15 m ρ c, Cert.KernelIdeal.HostVal.V8_v16 m ρ c,
    Cert.KernelIdeal.HostVal.V8_arg2 m ρ c, Cert.KernelIdeal.HostVal.V8_arg3 m ρ c, Cert.KernelIdeal.HostVal.V8_arg4 m ρ c,
    Cert.KernelIdeal.Take.heTake_eq _ _ _ hr, Cert.KernelIdeal.Take.hrTake_eq _ _ _ hr, Cert.KernelIdeal.Take.qrTake_eq _ _ _ hr]

open Cert.KernelIdeal Cert.KernelIdeal.Gen in
/-- The same, in the reference's spelling of the indexed rows and of the segment sum. -/
theorem kernel_result_ref (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    W11 m ρ c (Proc.devRef .tc main_v21)
      = Cert.EdgeSpec.rowProj (n := 100000)
          (Cert.ReferenceIdeal.RefVal.segSum (m ((c : Thread nD τ).loc main_arg11))
            (Cert.EdgeSpec.rowMsg (n := 1000000)
              (Cert.ReferenceIdeal.Read.val_main_v12 (F := Ideal) (m ((c : Thread nD τ).loc main_arg0)) (m ((c : Thread nD τ).loc main_arg10)))
              (Cert.ReferenceIdeal.Read.val_main_v21 (F := Ideal) (m ((c : Thread nD τ).loc main_arg1)) (m ((c : Thread nD τ).loc main_arg10)))
              (Cert.ReferenceIdeal.Read.val_main_v37 (F := Ideal) (m ((c : Thread nD τ).loc main_arg1)) (m ((c : Thread nD τ).loc main_arg9)) (m ((c : Thread nD τ).loc main_arg10)))
              (m ((c : Thread nD τ).loc main_arg2)) (m ((c : Thread nD τ).loc main_arg3)) (m ((c : Thread nD τ).loc main_arg4))
              (Cert.EdgeSpec.biasRow (m ((c : Thread nD τ).loc main_arg5))) (Cert.EdgeSpec.attRow (m ((c : Thread nD τ).loc main_arg6)))
              (Cert.EdgeSpec.offCell (m ((c : Thread nD τ).loc main_arg7)))))
          (m ((c : Thread nD τ).loc main_arg8)) :=
  (kernel_result m ρ hpre c).trans (by rw [he_same, hr_same, qr_same, seg_same])

end Cert.Proof.Bridge

/-! ## The claims -/

namespace Cert.Proof.Claims

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Cert.KernelIdeal.Gen.W11 m ρ c (Proc.devRef .tc Cert.KernelIdeal.main_v21), Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := hagree c
  rw [Cert.ReferenceIdeal.Read.val_main_v63_eq, Cert.ReferenceIdeal.RefVal.result_eq, h0, h1, h2, h3, h4, h5, h6, h7, h8, h9, h10, h11]
  exact (Cert.Proof.Bridge.kernel_result_ref m ρ hpre c).symm

end Cert.Proof.Claims

end
-- ==== Proof.lean ====
/-
  The certificate's claim: a graph message-passing step — three indexed row gathers, a fused per-edge attention gate
  (three 128 × 128 products, a bias, a rectifier, an attention row, a logistic) applied to the sum of two embeddings, a
  segment sum into the tail nodes, and a 128 × 128 projection — computed by two tiled kernels around host gathers and a
  host scatter-add, against the same step written with plain array operations.

  The frames of the two kernel programs are the generated ones; the reference's is its run with the result dropped. The
  ideal pass rewrote nothing. The value claim is Proof/Claims.lean: both results are the projection of the segment sum of
  the message of the same indexed rows, on every memory whose integer indices lie in the valid range of the axis they index.
-/
import proofs.«419128_j63204738728140_1_alg».proof.Defs
import proofs.«419128_j63204738728140_1_alg».proof.Proof.Claims
import proofs.«419128_j63204738728140_1_alg».proof.Proof.Gen.Kernel
import proofs.«419128_j63204738728140_1_alg».proof.Proof.Gen.KernelIdeal
import proofs.«419128_j63204738728140_1_alg».proof.Proof.Gen.ReferenceIdeal
import proofs.«419128_j63204738728140_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
